-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S8x128x128 : Shape := ⟨3, ![8, 128, 128]⟩
abbrev S_ : Shape := ⟨0, ![]⟩
abbrev S1x500000 : Shape := ⟨2, ![1, 500000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x128x128 : S_.BroadcastsInDim S8x128x128 (![] : Fin 0 → Fin S8x128x128.rank)
  reducesTo_S8x128x128_S_d0_1_2 : S8x128x128.ReducesTo [0, 1, 2] S_
  slices_S2x500000_S1x500000_1_0 : S2x500000.Slices ![1, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part2 {F : FTy → Type} [FloatOps F] (main_arg2 : IVec S500000 32) (main_v30 : IVec S_ 1) (main_v33 : IVec S_ 1) : IVec S_ 1 :=
  let main_v34 : IVec S_ 1 := andi main_v30 main_v33
  let main_c_12 : IVec S_ 32 := constantI S_ 32 8#32
  let main_v35 : IVec S500000 32 := broadcastInDim S500000 ![] bcast_S_S500000 main_c_12
  let main_v36 : IVec S500000 1 := cmpi .slt main_arg2 main_v35
  let main_c_13 : IVec S_ 1 := constantI S_ 1 1#1
  let main_v37 : IVec S_ 1 := (fun x v => Host.reduce IntOp.andi x v reducesTo_S500000_S_d0 h_S_) main_v36 main_c_13
  let main_v38 : IVec S_ 1 := andi main_v34 main_v37
  main_v38

def fn_part1 {F : FTy → Type} [FloatOps F] (main_arg1 : IVec S2x500000 32) (main_arg2 : IVec S500000 32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : IVec S1x500000 32 := (extractStridedSlice S1x500000 ![1, 0] · slices_S2x500000_S1x500000_1_0) main_arg1
  let main_v20 : IVec S500000 32 := shapeCast S500000 main_v19 shapeCasts_S1x500000_S500000
  let main_c_6 : IVec S_ 32 := constantI S_ 32 0#32
  let main_v21 : IVec S500000 32 := broadcastInDim S500000 ![] bcast_S_S500000 main_c_6
  let main_v22 : IVec S500000 1 := cmpi .sge main_v20 main_v21
  let main_c_7 : IVec S_ 1 := constantI S_ 1 1#1
  let main_v23 : IVec S_ 1 := (fun x v => Host.reduce IntOp.andi x v reducesTo_S500000_S_d0 h_S_) main_v22 main_c_7
  let main_v24 : IVec S_ 1 := andi main_v18 main_v23
  let main_v25 : IVec S1x500000 32 := (extractStridedSlice S1x500000 ![1, 0] · slices_S2x500000_S1x500000_1_0) main_arg1
  let main_v26 : IVec S500000 32 := shapeCast S500000 main_v25 shapeCasts_S1x500000_S500000
  let main_c_8 : IVec S_ 32 := constantI S_ 32 50000#32
  let main_v27 : IVec S500000 32 := broadcastInDim S500000 ![] bcast_S_S500000 main_c_8
  let main_v28 : IVec S500000 1 := cmpi .slt main_v26 main_v27
  let main_c_9 : IVec S_ 1 := constantI S_ 1 1#1
  let main_v29 : IVec S_ 1 := (fun x v => Host.reduce IntOp.andi x v reducesTo_S500000_S_d0 h_S_) main_v28 main_c_9
  let main_v30 : IVec S_ 1 := andi main_v24 main_v29
  let main_c_10 : IVec S_ 32 := constantI S_ 32 0#32
  let main_v31 : IVec S500000 32 := broadcastInDim S500000 ![] bcast_S_S500000 main_c_10
  let main_v32 : IVec S500000 1 := cmpi .sge main_arg2 main_v31
  let main_c_11 : IVec S_ 1 := constantI S_ 1 1#1
  let main_v33 : IVec S_ 1 := (fun x v => Host.reduce IntOp.andi x v reducesTo_S500000_S_d0 h_S_) main_v32 main_c_11
  fn_part2 (F := F) main_arg2 main_v30 main_v33

def fn {F : FTy → Type} [FloatOps F] (main_arg0 : FVec F S50000x128 .f32) (main_arg1 : IVec S2x500000 32) (main_arg2 : IVec S500000 32) (main_arg3 : FVec F S128x128 .f32) (main_arg4 : FVec F S128 .f32) (main_arg5 : FVec F S8x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8x128x128 .f32 := Host.absf main_arg5
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg1 main_arg2 main_v13 main_v16
-- ==== Kernel.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S8x128x128 : Shape := ⟨3, ![8, 128, 128]⟩
abbrev S1x500000 : Shape := ⟨2, ![1, 500000]⟩
abbrev S_ : Shape := ⟨0, ![]⟩
abbrev S500000x1 : Shape := ⟨2, ![500000, 1]⟩
abbrev S500000x128 : Shape := ⟨2, ![500000, 128]⟩
abbrev S400000x128 : Shape := ⟨2, ![400000, 128]⟩
abbrev S8x50000x128 : Shape := ⟨3, ![8, 50000, 128]⟩
abbrev S50000x1 : Shape := ⟨2, ![50000, 1]⟩
abbrev S1x128 : Shape := ⟨2, ![1, 128]⟩
abbrev S1x10000x128 : Shape := ⟨3, ![1, 10000, 128]⟩
abbrev S1x128x128 : Shape := ⟨3, ![1, 128, 128]⟩
abbrev S10000x128 : Shape := ⟨2, ![10000, 128]⟩
abbrev S10000x1 : Shape := ⟨2, ![10000, 1]⟩

abbrev nBuf : Space → Nat
  | .hbm => 48
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000, .i32⟩
  | .hbm, ⟨3, _⟩ => ⟨S128x128, .f32⟩
  | .hbm, ⟨4, _⟩ => ⟨S128, .f32⟩
  | .hbm, ⟨5, _⟩ => ⟨S8x128x128, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .f32⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S_, .f32⟩
  | .hbm, ⟨24, _⟩ => ⟨S400000x128, .f32⟩
  | .hbm, ⟨25, _⟩ => ⟨S500000x1, .i32⟩
  | .hbm, ⟨26, _⟩ => ⟨S400000x128, .f32⟩
  | .hbm, ⟨27, _⟩ => ⟨S8x50000x128, .f32⟩
  | .hbm, ⟨28, _⟩ => ⟨S8x50000x128, .bf16⟩
  | .hbm, ⟨29, _⟩ => ⟨S_, .f32⟩
  | .hbm, ⟨30, _⟩ => ⟨S500000x1, .f32⟩
  | .hbm, ⟨31, _⟩ => ⟨S_, .f32⟩
  | .hbm, ⟨32, _⟩ => ⟨S50000x1, .f32⟩
  | .hbm, ⟨33, _⟩ => ⟨S500000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .bf16⟩
  | .hbm, ⟨42, _⟩ => ⟨S8x128x128, .f32⟩
  | .hbm, ⟨43, _⟩ => ⟨S8x128x128, .bf16⟩
  | .hbm, ⟨44, _⟩ => ⟨S128x128, .f32⟩
  | .hbm, ⟨45, _⟩ => ⟨S128x128, .bf16⟩
  | .hbm, ⟨46, _⟩ => ⟨S1x128, .f32⟩
  | .hbm, ⟨47, _⟩ => ⟨S50000x128, .f32⟩
  | .local _ .vmem, ⟨0, _⟩ => ⟨S1x10000x128, .bf16⟩
  | .local _ .vmem, ⟨1, _⟩ => ⟨S1x10000x128, .bf16⟩
  | .local _ .vmem, ⟨2, _⟩ => ⟨S1x128x128, .bf16⟩
  | .local _ .vmem, ⟨3, _⟩ => ⟨S1x128x128, .bf16⟩
  | .local _ .vmem, ⟨4, _⟩ => ⟨S10000x128, .bf16⟩
  | .local _ .vmem, ⟨5, _⟩ => ⟨S10000x128, .bf16⟩
  | .local _ .vmem, ⟨6, _⟩ => ⟨S10000x1, .f32⟩
  | .local _ .vmem, ⟨7, _⟩ => ⟨S10000x1, .f32⟩
  | .local _ .vmem, ⟨8, _⟩ => ⟨S128x128, .bf16⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![5, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S400000x128 : S_.BroadcastsInDim S400000x128 (![] : Fin 0 → Fin S400000x128.rank)
  shapeCasts_S400000x128_S8x50000x128 : S400000x128.ShapeCasts S8x50000x128
  bitsLt_bf16_f32 : FTy.bits .bf16 < FTy.bits .f32
  bcast_S_S500000x1 : S_.BroadcastsInDim S500000x1 (![] : Fin 0 → Fin S500000x1.rank)
  bcast_S_S50000x1 : S_.BroadcastsInDim S50000x1 (![] : Fin 0 → Fin S50000x1.rank)
  transposes_S8x128x128_S8x128x128_0_2_1 : S8x128x128.Transposes [0, 2, 1] S8x128x128
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S50000x128_S500000x1_S500000x128_1_0_n_n_0_1_1128_wf : GatherDims.WF S50000x128 S500000x1 S500000x128 [1] [0] [] [0] [] 1 ![1, 128]
  scatter_S400000x128_S500000x1_S500000x128_1_0_0_1_wf : ScatterDims.WF S400000x128 S500000x1 S500000x128 [1] [0] [0] 1
  scatter_S50000x1_S500000x1_S500000x1_1_0_0_1_wf : ScatterDims.WF S50000x1 S500000x1 S500000x1 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S8x50000x128.size a
  hwx0_0 : ∀ i : grid0.Coords, EltTy.bits .bf16 = 32 ∨ (Rect.block (s := S8x50000x128) S1x10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .bf16 = 32 ∨ (Rect.block (s := S8x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .bf16 = 32 ∨ (Rect.block (s := S50000x128) S10000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S50000x1.size a
  hwx0_3 : ∀ i : grid0.Coords, EltTy.bits .f32 = 32 ∨ (Rect.block (s := S50000x1) S10000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S400000x128_S500000x1_S500000x128_1_0_0_1 : ScatterDims S400000x128 S500000x1 S500000x128 where
  updateWindowDims := [1]
  insertedWindowDims := [0]
  scatterDimsToOperandDims := [0]
  indexVectorDim := 1
  wf := scatter_S400000x128_S500000x1_S500000x128_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v18) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S8x128x128 : Shape := ⟨3, ![8, 128, 128]⟩
abbrev S1x500000 : Shape := ⟨2, ![1, 500000]⟩
abbrev S_ : Shape := ⟨0, ![]⟩
abbrev S500000x1 : Shape := ⟨2, ![500000, 1]⟩
abbrev S500000x128 : Shape := ⟨2, ![500000, 128]⟩
abbrev S1x128x128 : Shape := ⟨3, ![1, 128, 128]⟩
abbrev S50000x1 : Shape := ⟨2, ![50000, 1]⟩
abbrev S1x128 : Shape := ⟨2, ![1, 128]⟩

abbrev nBuf : Space → Nat
  | .hbm => 157
  | .vmem => 0
  | .smem => 0
  | _ => 0

abbrev hbmTy0_0 (i : Nat) : BufTy := match i % 128 with
  | 0 => ⟨S50000x128, .f32⟩
  | 1 => ⟨S2x500000, .i32⟩
  | 2 => ⟨S500000, .i32⟩
  | 3 => ⟨S128x128, .f32⟩
  | 4 => ⟨S128, .f32⟩
  | 5 => ⟨S8x128x128, .f32⟩
  | 6 => ⟨S1x500000, .i32⟩
  | 7 => ⟨S500000, .i32⟩
  | 8 => ⟨S1x500000, .i32⟩
  | 9 => ⟨S500000, .i32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x128, .f32⟩
  | 19 => ⟨S_, .f32⟩
  | 20 => ⟨S500000x128, .f32⟩
  | 21 => ⟨S1x128x128, .f32⟩
  | 22 => ⟨S128x128, .f32⟩
  | 23 => ⟨S128x128, .f32⟩
  | 24 => ⟨S500000x128, .f32⟩
  | 25 => ⟨S_, .i32⟩
  | 26 => ⟨S500000, .i32⟩
  | 27 => ⟨S500000, .i1⟩
  | 28 => ⟨S500000x1, .i1⟩
  | 29 => ⟨S_, .f32⟩
  | 30 => ⟨S_, .f32⟩
  | 31 => ⟨S500000x128, .i1⟩
  | 32 => ⟨S500000x128, .f32⟩
  | 33 => ⟨S500000x128, .f32⟩
  | 34 => ⟨S500000x128, .f32⟩
  | 35 => ⟨S1x128x128, .f32⟩
  | 36 => ⟨S128x128, .f32⟩
  | 37 => ⟨S128x128, .f32⟩
  | 38 => ⟨S500000x128, .f32⟩
  | 39 => ⟨S_, .i32⟩
  | 40 => ⟨S500000, .i32⟩
  | 41 => ⟨S500000, .i1⟩
  | 42 => ⟨S500000x1, .i1⟩
  | 43 => ⟨S_, .f32⟩
  | 44 => ⟨S_, .f32⟩
  | 45 => ⟨S500000x128, .i1⟩
  | 46 => ⟨S500000x128, .f32⟩
  | 47 => ⟨S500000x128, .f32⟩
  | 48 => ⟨S500000x128, .f32⟩
  | 49 => ⟨S1x128x128, .f32⟩
  | 50 => ⟨S128x128, .f32⟩
  | 51 => ⟨S128x128, .f32⟩
  | 52 => ⟨S500000x128, .f32⟩
  | 53 => ⟨S_, .i32⟩
  | 54 => ⟨S500000, .i32⟩
  | 55 => ⟨S500000, .i1⟩
  | 56 => ⟨S500000x1, .i1⟩
  | 57 => ⟨S_, .f32⟩
  | 58 => ⟨S_, .f32⟩
  | 59 => ⟨S500000x128, .i1⟩
  | 60 => ⟨S500000x128, .f32⟩
  | 61 => ⟨S500000x128, .f32⟩
  | 62 => ⟨S500000x128, .f32⟩
  | 63 => ⟨S1x128x128, .f32⟩
  | 64 => ⟨S128x128, .f32⟩
  | 65 => ⟨S128x128, .f32⟩
  | 66 => ⟨S500000x128, .f32⟩
  | 67 => ⟨S_, .i32⟩
  | 68 => ⟨S500000, .i32⟩
  | 69 => ⟨S500000, .i1⟩
  | 70 => ⟨S500000x1, .i1⟩
  | 71 => ⟨S_, .f32⟩
  | 72 => ⟨S_, .f32⟩
  | 73 => ⟨S500000x128, .i1⟩
  | 74 => ⟨S500000x128, .f32⟩
  | 75 => ⟨S500000x128, .f32⟩
  | 76 => ⟨S500000x128, .f32⟩
  | 77 => ⟨S1x128x128, .f32⟩
  | 78 => ⟨S128x128, .f32⟩
  | 79 => ⟨S128x128, .f32⟩
  | 80 => ⟨S500000x128, .f32⟩
  | 81 => ⟨S_, .i32⟩
  | 82 => ⟨S500000, .i32⟩
  | 83 => ⟨S500000, .i1⟩
  | 84 => ⟨S500000x1, .i1⟩
  | 85 => ⟨S_, .f32⟩
  | 86 => ⟨S_, .f32⟩
  | 87 => ⟨S500000x128, .i1⟩
  | 88 => ⟨S500000x128, .f32⟩
  | 89 => ⟨S500000x128, .f32⟩
  | 90 => ⟨S500000x128, .f32⟩
  | 91 => ⟨S1x128x128, .f32⟩
  | 92 => ⟨S128x128, .f32⟩
  | 93 => ⟨S128x128, .f32⟩
  | 94 => ⟨S500000x128, .f32⟩
  | 95 => ⟨S_, .i32⟩
  | 96 => ⟨S500000, .i32⟩
  | 97 => ⟨S500000, .i1⟩
  | 98 => ⟨S500000x1, .i1⟩
  | 99 => ⟨S_, .f32⟩
  | 100 => ⟨S_, .f32⟩
  | 101 => ⟨S500000x128, .i1⟩
  | 102 => ⟨S500000x128, .f32⟩
  | 103 => ⟨S500000x128, .f32⟩
  | 104 => ⟨S500000x128, .f32⟩
  | 105 => ⟨S1x128x128, .f32⟩
  | 106 => ⟨S128x128, .f32⟩
  | 107 => ⟨S128x128, .f32⟩
  | 108 => ⟨S500000x128, .f32⟩
  | 109 => ⟨S_, .i32⟩
  | 110 => ⟨S500000, .i32⟩
  | 111 => ⟨S500000, .i1⟩
  | 112 => ⟨S500000x1, .i1⟩
  | 113 => ⟨S_, .f32⟩
  | 114 => ⟨S_, .f32⟩
  | 115 => ⟨S500000x128, .i1⟩
  | 116 => ⟨S500000x128, .f32⟩
  | 117 => ⟨S500000x128, .f32⟩
  | 118 => ⟨S500000x128, .f32⟩
  | 119 => ⟨S1x128x128, .f32⟩
  | 120 => ⟨S128x128, .f32⟩
  | 121 => ⟨S128x128, .f32⟩
  | 122 => ⟨S500000x128, .f32⟩
  | 123 => ⟨S_, .i32⟩
  | 124 => ⟨S500000, .i32⟩
  | 125 => ⟨S500000, .i1⟩
  | 126 => ⟨S500000x1, .i1⟩
  | 127 => ⟨S_, .f32⟩
  | _ => ⟨S50000x128, .f32⟩

abbrev hbmTy0_1 (i : Nat) : BufTy := match i % 128 with
  | 0 => ⟨S_, .f32⟩
  | 1 => ⟨S500000x128, .i1⟩
  | 2 => ⟨S500000x128, .f32⟩
  | 3 => ⟨S500000x128, .f32⟩
  | 4 => ⟨S500000x128, .f32⟩
  | 5 => ⟨S_, .f32⟩
  | 6 => ⟨S50000x128, .f32⟩
  | 7 => ⟨S500000x1, .i32⟩
  | 8 => ⟨S50000x128, .f32⟩
  | 9 => ⟨S_, .f32⟩
  | 10 => ⟨S500000x1, .f32⟩
  | 11 => ⟨S_, .f32⟩
  | 12 => ⟨S50000x1, .f32⟩
  | 13 => ⟨S500000x1, .i32⟩
  | 14 => ⟨S50000x1, .f32⟩
  | 15 => ⟨S_, .f32⟩
  | 16 => ⟨S50000x1, .f32⟩
  | 17 => ⟨S50000x1, .f32⟩
  | 18 => ⟨S50000x128, .f32⟩
  | 19 => ⟨S50000x128, .f32⟩
  | 20 => ⟨S128x128, .f32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S50000x128, .f32⟩
  | 28 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_12 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_13 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_14 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_15 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_16 : Ref sig .tc := ⟨.hbm, 127, rfl⟩
abbrev main_call7_v0 : Ref sig .tc := ⟨.hbm, 128, rfl⟩
abbrev main_call7_v1 : Ref sig .tc := ⟨.hbm, 129, rfl⟩
abbrev main_call7_v2 : Ref sig .tc := ⟨.hbm, 130, rfl⟩
abbrev main_v82 : Ref sig .tc := ⟨.hbm, 131, rfl⟩
abbrev main_v83 : Ref sig .tc := ⟨.hbm, 132, rfl⟩
abbrev main_cst_17 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_18 : Ref sig .tc := ⟨.hbm, 137, rfl⟩
abbrev main_v87 : Ref sig .tc := ⟨.hbm, 138, rfl⟩
abbrev main_cst_19 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_20 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_call8_cst : Ref sig .tc := ⟨.hbm, 154, rfl⟩
abbrev main_call8_v0 : Ref sig .tc := ⟨.hbm, 155, rfl⟩
abbrev main_v101 : Ref sig .tc := ⟨.hbm, 156, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  slices_S8x128x128_S1x128x128_0_0_0 : S8x128x128.Slices ![0, 0, 0] S1x128x128
  shapeCasts_S1x128x128_S128x128 : S1x128x128.ShapeCasts S128x128
  transposes_S128x128_S128x128_1_0 : S128x128.Transposes [1, 0] S128x128
  bcast_S500000x1_S500000x128_0_1 : S500000x1.BroadcastsInDim S500000x128 (![0, 1] : Fin 2 → Fin S500000x128.rank)
  slices_S8x128x128_S1x128x128_1_0_0 : S8x128x128.Slices ![1, 0, 0] S1x128x128
  slices_S8x128x128_S1x128x128_2_0_0 : S8x128x128.Slices ![2, 0, 0] S1x128x128
  slices_S8x128x128_S1x128x128_3_0_0 : S8x128x128.Slices ![3, 0, 0] S1x128x128
  slices_S8x128x128_S1x128x128_4_0_0 : S8x128x128.Slices ![4, 0, 0] S1x128x128
  slices_S8x128x128_S1x128x128_5_0_0 : S8x128x128.Slices ![5, 0, 0] S1x128x128
  slices_S8x128x128_S1x128x128_6_0_0 : S8x128x128.Slices ![6, 0, 0] S1x128x128
  slices_S8x128x128_S1x128x128_7_0_0 : S8x128x128.Slices ![7, 0, 0] S1x128x128
  bcast_S_S50000x128 : S_.BroadcastsInDim S50000x128 (![] : Fin 0 → Fin S50000x128.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1
  scatter_S50000x1_S500000x1_S500000x1_1_0_0_1_wf : ScatterDims.WF S50000x1 S500000x1 S500000x1 [1] [0] [0] 1
  dot_S50000x128_S128x128_S50000x128_1_0_0_1_n_n_wf : DotDims.WF S50000x128 S128x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The two values, as functions of the argument arrays, entry by entry.

  A relational graph layer over N = 50000 nodes, E = 500000 edges, D = 128 features and R = 8 relations. Edge e
  carries a source row X e (the node states gathered at its source), a destination word dst e and a relation word
  et e. Node n's value in feature j is

      max (self n j + b j + agg n j / max (deg n) 1) 0,

  self n j = Σ_κ ns (n, κ) · Ws (j, κ), deg n the number of edges whose destination is n, and agg n j the sum over
  the edges into n of the edge's source row times its relation's matrix. One program groups the source rows by the
  key dst + N · et before the products and multiplies by the reciprocal of max (deg n) 1; the other multiplies
  every edge's row by the matrix its relation selects and sums over the edges into n, then divides.
-/
import Idealize.ShloMosaic.PureOps.Ideal
import Idealize.ShloMosaic.Lib.ValueIdx

noncomputable section

open scoped BigOperators

namespace Cert.Spec

open Idealize.ShloMosaic Idealize.ShloMosaic.ValueIdx

/-- The float words the programs carry: zero and one. -/
abbrev zf : EReal := Ideal.ofBits .f32 0x00000000#32
abbrev onef : EReal := Ideal.ofBits .f32 0x3F800000#32

variable (X : (⟨2, ![500000, 128]⟩ : Shape).Idx → EReal)
  (ns : (⟨2, ![50000, 128]⟩ : Shape).Idx → EReal)
  (dst et : (⟨1, ![500000]⟩ : Shape).Idx → BitVec 32)
  (Ws : (⟨2, ![128, 128]⟩ : Shape).Idx → EReal) (bs : (⟨1, ![128]⟩ : Shape).Idx → EReal)
  (Wr : (⟨3, ![8, 128, 128]⟩ : Shape).Idx → EReal)

/-- The edges whose destination word, read signed, is n. -/
def into (n : Fin 50000) : Finset (Fin 500000) :=
  Finset.univ.filter fun e => (dst (ix1 e)).toInt = (n.val : Int)

/-- The edges whose key dst + 50000 · et, computed on 32-bit words and read signed, is q. -/
def keyed (q : Fin 400000) : Finset (Fin 500000) :=
  Finset.univ.filter fun e => (dst (ix1 e) + 50000#32 * et (ix1 e)).toInt = (q.val : Int)

/-- Node n's in-degree as both programs accumulate it: ones added over the edges into n. -/
def deg (n : Fin 50000) : EReal := zf + ∑ _e ∈ into dst n, onef

/-- The node's own transform: row n of the states against row j of the self matrix. -/
def selfTerm (n : Fin 50000) (j : Fin 128) : EReal := ∑ κ : Fin 128, ns (ix2 n κ) * Ws (ix2 j κ)

/-- The source rows grouped by key: entry (q, κ) sums feature κ of the rows of the edges keyed q. -/
def grouped (q : Fin 400000) (κ : Fin 128) : EReal := zf + ∑ e ∈ keyed dst et q, X (ix2 e κ)

/-- Row s · 50000 + n of the grouped sums, for relation s and node n. -/
def slot (s : Fin 8) (n : Fin 50000) : Fin 400000 := ⟨s.val * 50000 + n.val, by have := s.isLt; have := n.isLt; omega⟩

/-- GROUPED FIRST: over the relations, the grouped rows of (relation, node) against the relation's matrix. -/
def kerAgg (n : Fin 50000) (j : Fin 128) : EReal :=
  ∑ s : Fin 8, ∑ κ : Fin 128, grouped X dst et (slot s n) κ * Wr (ix3 s j κ)

/-- … normalised by the reciprocal of the clamped degree, added to the node's own transform and bias, clamped at 0. -/
def kerOut (n : Fin 50000) (j : Fin 128) : EReal :=
  max ((selfTerm ns Ws n j + bs (ix1 j)) + kerAgg X dst et Wr n j * Ideal.div onef (max (deg dst n) onef)) zf

/-- EDGE BY EDGE: edge e's message, its source row against the matrix of the relation its word names (none if the
    word names no relation). -/
def msg (e : Fin 500000) (j : Fin 128) : EReal :=
  ∑ s : Fin 8, if et (ix1 e) = BitVec.ofNat 32 s.val then ∑ κ : Fin 128, X (ix2 e κ) * Wr (ix3 s j κ) else 0

/-- The messages of the edges into n, added. -/
def refAgg (n : Fin 50000) (j : Fin 128) : EReal := zf + ∑ e ∈ into dst n, msg X et Wr e j

/-- … divided by the clamped degree, added to the node's own transform and bias, clamped at 0. -/
def refOut (n : Fin 50000) (j : Fin 128) : EReal :=
  max ((selfTerm ns Ws n j + bs (ix1 j)) + Ideal.div (refAgg X dst et Wr n j) (max (deg dst n) onef)) zf

end Cert.Spec

end
-- ==== Proof.LibScatter.lean ====
/-
  A row scatter with addition, read at an index.

  The accumulating scatter whose updates are rows: operand M × D, one start index per update row (an E × 1 array of
  words), updates E × D, the update row e added into operand row idx (e, 0) read as a signed integer, and dropped
  when that row is outside the operand. At the ideal values (a float is an extended real) its entry (q, k) is the
  operand's entry plus the sum, over the update rows e whose index is q, of the update's entry (e, k). Stated for
  any dimension-numbers record whose lists are those of a row scatter, generically in the sizes.
-/
import Idealize.ShloMosaic.PureOps.Ideal
import Idealize.ShloMosaic.Lib.ValueIdx

noncomputable section

open scoped BigOperators

namespace Cert.LibScatter

open Idealize.ShloMosaic Idealize.ShloMosaic.ValueIdx

/-- The row scatter's dimension numbers: the update's axis 1 is the window, the operand's axis 0 is indexed. -/
abbrev rowDims (M E D : Nat) (wf : ScatterDims.WF ⟨2, ![M, D]⟩ ⟨2, ![E, 1]⟩ ⟨2, ![E, D]⟩ [1] [0] [0] 1) :
    ScatterDims ⟨2, ![M, D]⟩ ⟨2, ![E, 1]⟩ ⟨2, ![E, D]⟩ where
  updateWindowDims := [1]
  insertedWindowDims := [0]
  scatterDimsToOperandDims := [0]
  indexVectorDim := 1
  wf := wf

/-- A record whose lists are the row scatter's is the row scatter's record. -/
theorem dims_eq_rows {M E D : Nat} (d : ScatterDims ⟨2, ![M, D]⟩ ⟨2, ![E, 1]⟩ ⟨2, ![E, D]⟩)
    (h1 : d.updateWindowDims = [1]) (h2 : d.insertedWindowDims = [0]) (h3 : d.scatterDimsToOperandDims = [0])
    (h4 : d.indexVectorDim = 1) : ∃ wf, d = rowDims M E D wf := by
  cases d
  simp only at h1 h2 h3 h4
  subst h1 h2 h3 h4
  exact ⟨_, rfl⟩

section Rows
variable {M E D w : Nat} (wf : ScatterDims.WF ⟨2, ![M, D]⟩ ⟨2, ![E, 1]⟩ ⟨2, ![E, D]⟩ [1] [0] [0] 1)
  (idx : IVec ⟨2, ![E, 1]⟩ w) (e : Fin E) (k : Fin D)

/-- Update row e starts at the word idx (e, 0), read signed, on the operand's row axis … -/
theorem start_row : (rowDims M E D wf).start (ix2 e k) idx 0 = (idx (ix2 e 0)).toInt := by
  unfold ScatterDims.start
  rw [dif_pos (show (0 : Fin 2) ∈ (rowDims M E D wf).scatterDimsToOperandDims from List.mem_singleton.mpr rfl)]
  congr 2
  funext b
  apply Fin.ext
  match b with
  | ⟨0, _⟩ => rfl
  | ⟨1, _⟩ => rfl

/-- … and at 0 on the column axis. -/
theorem start_col : (rowDims M E D wf).start (ix2 e k) idx 1 = 0 := by
  unfold ScatterDims.start
  rw [dif_neg (show ¬(1 : Fin 2) ∈ ([0] : List (Fin 2)) from by decide)]

/-- The window adds nothing on the row axis … -/
theorem window_row : (rowDims M E D wf).window (ix2 e k) 0 = 0 := by
  unfold ScatterDims.window
  exact dif_neg (show ¬(0 : Fin 2) ∈ (List.finRange 2).filter (· ∉ ([0] : List (Fin 2))) from by decide)

/-- … and the update's column on the column axis. -/
theorem window_col : (rowDims M E D wf).window (ix2 e k) 1 = k.val := by
  unfold ScatterDims.window
  exact (dif_pos (show (1 : Fin 2) ∈ (List.finRange 2).filter (· ∉ ([0] : List (Fin 2))) from by decide)).trans rfl

/-- WHERE AN UPDATE ENTRY LANDS: entry (e, k) of the updates lands on entry (q, k') of the operand exactly when the
    word idx (e, 0), read signed, is q and k = k'. -/
theorem resultIdx_rows (q : Fin M) (k' : Fin D) :
    (rowDims M E D wf).resultIdx? (ix2 e k) idx = some (ix2 q k') ↔ (idx (ix2 e 0)).toInt = (q.val : Int) ∧ k = k' := by
  unfold ScatterDims.resultIdx?
  constructor
  · intro h
    split at h
    · rename_i hin
      have h' := Option.some.inj h
      have h0 := congrArg Fin.val (congrFun h' 0)
      have h1 := congrArg Fin.val (congrFun h' 1)
      simp only [start_row, start_col, window_row, window_col] at h0 h1
      have hin0 := hin 0
      rw [start_row, window_row] at hin0
      refine ⟨?_, Fin.ext ?_⟩
      · have : ((idx (ix2 e 0)).toInt + ((0 : Nat) : Int)).toNat = q.val := h0
        omega
      · have : (((0 : Int)) + ((k.val : Nat) : Int)).toNat = k'.val := h1
        omega
    · exact absurd h (by simp)
  · rintro ⟨hq, rfl⟩
    have hin : ∀ a, 0 ≤ (rowDims M E D wf).start (ix2 e k) idx a + (rowDims M E D wf).window (ix2 e k) a ∧
        (rowDims M E D wf).start (ix2 e k) idx a + (rowDims M E D wf).window (ix2 e k) a < (⟨2, ![M, D]⟩ : Shape).size a := by
      intro a
      match a with
      | ⟨0, _⟩ =>
        show 0 ≤ (rowDims M E D wf).start (ix2 e k) idx 0 + (rowDims M E D wf).window (ix2 e k) 0 ∧
          (rowDims M E D wf).start (ix2 e k) idx 0 + (rowDims M E D wf).window (ix2 e k) 0 < (M : Int)
        rw [start_row, window_row, hq]
        have := q.isLt
        omega
      | ⟨1, _⟩ =>
        show 0 ≤ (rowDims M E D wf).start (ix2 e k) idx 1 + (rowDims M E D wf).window (ix2 e k) 1 ∧
          (rowDims M E D wf).start (ix2 e k) idx 1 + (rowDims M E D wf).window (ix2 e k) 1 < (D : Int)
        rw [start_col, window_col]
        have := k.isLt
        omega
    rw [dif_pos hin]
    congr 1
    funext a
    apply Fin.ext
    match a with
    | ⟨0, _⟩ =>
      show ((rowDims M E D wf).start (ix2 e k) idx 0 + (rowDims M E D wf).window (ix2 e k) 0).toNat = q.val
      rw [start_row, window_row, hq]
      omega
    | ⟨1, _⟩ =>
      show ((rowDims M E D wf).start (ix2 e k) idx 1 + (rowDims M E D wf).window (ix2 e k) 1).toNat = k.val
      rw [start_col, window_col]
      omega

end Rows

/-- THE ROW SCATTER WITH ADDITION READ AT (q, k): the operand's entry plus the sum of the updates' entries (e, k)
    over the update rows e whose index word, read signed, is q. -/
theorem scatterAdd_rows_apply {M E D w : Nat} {φ : FTy} (d : ScatterDims ⟨2, ![M, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![M, D]⟩ φ) (idx : IVec ⟨2, ![E, 1]⟩ w) (upd : FVec Ideal ⟨2, ![E, D]⟩ φ) (q : Fin M) (k : Fin D) :
    Host.scatterAdd (F := Ideal) d x idx upd (ix2 q k)
      = x (ix2 q k) + ∑ e ∈ Finset.univ.filter (fun e : Fin E => (idx (ix2 e 0)).toInt = (q.val : Int)), upd (ix2 e k) := by
  obtain ⟨wf, rfl⟩ := dims_eq_rows d h1 h2 h3 h4
  show Ideal.hostScatterAdd (rowDims M E D wf) x idx upd (ix2 q k) = _
  unfold Ideal.hostScatterAdd
  congr 1
  rw [Finset.sum_filter, Finset.sum_filter, sum_idx2]
  refine Finset.sum_congr rfl fun e _ => ?_
  simp only [resultIdx_rows]
  by_cases he : (idx (ix2 e 0)).toInt = (q.val : Int)
  · simp only [he, true_and, if_true]
    rw [Finset.sum_ite_eq' Finset.univ k (fun b => upd (ix2 e b))]
    simp
  · simp [he]

end Cert.LibScatter

end
-- ==== Proof.KernelHost.lean ====
/-
  What the region finds in its six operand arrays, entry by entry, as functions of the program's arguments: the
  source rows grouped by the key dst + 50000 · et and laid out relation by relation; the relation matrices with
  their last two axes exchanged; the node states; the reciprocal of the clamped in-degree; the self matrix
  transposed; the bias as a row.
-/
import proofs.«403347_j72756745994393_3_alg».proof.Proof.Gen.KernelIdeal.Frame
import proofs.«403347_j72756745994393_3_alg».proof.Proof.Spec
import proofs.«403347_j72756745994393_3_alg».proof.Proof.LibScatter
import Idealize.ShloMosaic.Lib.StableHlo.Run
import Idealize.ShloMosaic.Lib.Pipeline.Value
import Idealize.ShloMosaic.Lib.ValueLayout

noncomputable section

open scoped BigOperators

namespace Cert.KernelHost

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ) (c : Dev nD)

/-- The argument arrays as the device holds them. -/
abbrev a0 : FVec Ideal S50000x128 .f32 := m ((c : Thread nD τ).loc main_arg0)
abbrev a1 : IVec S2x500000 32 := m ((c : Thread nD τ).loc main_arg1)
abbrev a2 : IVec S500000 32 := m ((c : Thread nD τ).loc main_arg2)
abbrev a3 : FVec Ideal S128x128 .f32 := m ((c : Thread nD τ).loc main_arg3)
abbrev a4 : FVec Ideal S128 .f32 := m ((c : Thread nD τ).loc main_arg4)
abbrev a5 : FVec Ideal S8x128x128 .f32 := m ((c : Thread nD τ).loc main_arg5)

/-- The source words (row 0 of the edge index array, flattened) and the destination words (row 1). -/
abbrev srcw (x1 : IVec S2x500000 32) : IVec S500000 32 :=
  shapeCast S500000 (extractStridedSlice S1x500000 ![0, 0] x1 slices_S2x500000_S1x500000_0_0) shapeCasts_S1x500000_S500000
abbrev dstw (x1 : IVec S2x500000 32) : IVec S500000 32 :=
  shapeCast S500000 (extractStridedSlice S1x500000 ![1, 0] x1 slices_S2x500000_S1x500000_1_0) shapeCasts_S1x500000_S500000

/-- The gathered source rows: the node states at each edge's source word (a negative word wrapped once by 50000,
    then the gather's own clamp). -/
abbrev xs (x0 : FVec Ideal S50000x128 .f32) (x1 : IVec S2x500000 32) : FVec Ideal S500000x128 .f32 :=
  Host.gather gather_S50000x128_S500000x1_S500000x128_1_0_n_n_0_1_1128 x0
    (broadcastInDim S500000x1 ![0] bcast_S500000_S500000x1_0
      (select (cmpi .slt (srcw x1) (broadcastInDim S500000 ![] bcast_S_S500000 (constantI S_ 32 0#32)))
        (addi (srcw x1) (broadcastInDim S500000 ![] bcast_S_S500000 (constantI S_ 32 50000#32))) (srcw x1)))

/-! ### The six arrays as the host operations' composed terms -/

theorem v18_eq :
    (V m c main_v18 : S8x50000x128.Idx → EReal)
      = truncf .bf16 (shapeCast S8x50000x128
          (Host.scatterAdd (F := Ideal) scatter_S400000x128_S500000x1_S500000x128_1_0_0_1
            (broadcastInDim S400000x128 ![] bcast_S_S400000x128 (constant (F := Ideal) S_ .f32 0x00000000#32))
            (broadcastInDim S500000x1 ![0] bcast_S500000_S500000x1_0
              (addi (dstw (a1 m c)) (muli (broadcastInDim S500000 ![] bcast_S_S500000 (constantI S_ 32 50000#32)) (a2 m c))))
            (xs (a0 m c) (a1 m c)))
          shapeCasts_S400000x128_S8x50000x128) bitsLt_bf16_f32 := by
  dsimp only [Gen.V, Gen.hostOps0]
  after_results_simp
  rfl

theorem v29_eq :
    (V m c main_v29 : S8x128x128.Idx → EReal)
      = truncf .bf16 (transpose S8x128x128 [0, 2, 1] (a5 m c) transposes_S8x128x128_S8x128x128_0_2_1) bitsLt_bf16_f32 := by
  dsimp only [Gen.V, Gen.hostOps0]
  after_results

theorem v27_eq :
    (V m c main_v27 : S50000x128.Idx → EReal) = truncf .bf16 (a0 m c) bitsLt_bf16_f32 := by
  dsimp only [Gen.V, Gen.hostOps0]
  after_results

theorem v26_eq :
    (V m c main_v26 : S50000x1.Idx → EReal)
      = Host.divf (F := Ideal) (broadcastInDim S50000x1 ![] bcast_S_S50000x1 (constant (F := Ideal) S_ .f32 0x3F800000#32))
          (maximumf
            (Host.scatterAdd (F := Ideal) scatter_S50000x1_S500000x1_S500000x1_1_0_0_1
              (broadcastInDim S50000x1 ![] bcast_S_S50000x1 (constant (F := Ideal) S_ .f32 0x00000000#32))
              (broadcastInDim S500000x1 ![0] bcast_S500000_S500000x1_0 (dstw (a1 m c)))
              (broadcastInDim S500000x1 ![] bcast_S_S500000x1 (constant (F := Ideal) S_ .f32 0x3F800000#32)))
            (broadcastInDim S50000x1 ![] bcast_S_S50000x1 (constant (F := Ideal) S_ .f32 0x3F800000#32))) := by
  dsimp only [Gen.V, Gen.hostOps0]
  after_results
  rfl

theorem v31_eq :
    (V m c main_v31 : S128x128.Idx → EReal)
      = truncf .bf16 (transpose S128x128 [1, 0] (a3 m c) transposes_S128x128_S128x128_1_0) bitsLt_bf16_f32 := by
  dsimp only [Gen.V, Gen.hostOps0]
  after_results

theorem v32_eq :
    (V m c main_v32 : S1x128.Idx → EReal) = shapeCast S1x128 (a4 m c) shapeCasts_S128_S1x128 := by
  dsimp only [Gen.V, Gen.hostOps0]
  after_results
  rfl

/-! ### The layout operations read at an index -/

/-- A float word broadcast from a scalar reads, everywhere, the extended real the word encodes. -/
theorem splat_apply {t : Shape} (h : S_.BroadcastsInDim t (![] : Fin 0 → Fin t.rank)) (w : BitVec FTy.f32.bits) (j : t.Idx) :
    broadcastInDim t ![] h (constant (F := Ideal) S_ .f32 w) j = Ideal.ofBits .f32 w :=
  (broadcastInDim_apply _ h (constant (F := Ideal) S_ .f32 w) j ix0 (fun a => a.elim0)).trans rfl

/-- An integer word broadcast from a scalar to a vector reads the word everywhere. -/
theorem splatI_apply (h : S_.BroadcastsInDim S500000 (![] : Fin 0 → Fin S500000.rank)) (w : BitVec 32) (e : Fin 500000) :
    broadcastInDim S500000 ![] h (constantI S_ 32 w) (ix1 e) = w :=
  (broadcastInDim_apply _ h (constantI S_ 32 w) (ix1 e) ix0 (fun a => a.elim0)).trans rfl

/-- A word vector laid out as a one-column array reads the vector's word e at (e, 0). -/
theorem col_apply (v : IVec S500000 32) (e : Fin 500000) :
    broadcastInDim S500000x1 ![0] bcast_S500000_S500000x1_0 v (ix2 e (0 : Fin 1)) = v (ix1 e) :=
  broadcastInDim_apply _ bcast_S500000_S500000x1_0 v (ix2 e (0 : Fin 1)) (ix1 e) (fun a => match a with
    | ⟨0, _⟩ => by show e.val = if (500000 : Nat) = 1 then 0 else e.val; rw [if_neg (by decide)])

/-- The key vector at edge e: the destination word plus 50000 times the relation word, on 32-bit words. -/
theorem key_apply (d et : IVec S500000 32) (e : Fin 500000) :
    (addi d (muli (broadcastInDim S500000 ![] bcast_S_S500000 (constantI S_ 32 50000#32)) et)) (ix1 e)
      = d (ix1 e) + 50000#32 * et (ix1 e) := by
  show IntOp.addi (d (ix1 e))
      (IntOp.muli (broadcastInDim S500000 ![] bcast_S_S500000 (constantI S_ 32 50000#32) (ix1 e)) (et (ix1 e))) = _
  rw [splatI_apply]
  rfl

/-- The 400000 × 128 array read as 8 × 50000 × 128: entry (s, n, κ) is row s · 50000 + n, column κ. -/
theorem regroup_apply (y : S400000x128.Idx → EReal) (s : Fin 8) (n : Fin 50000) (κ : Fin 128) :
    shapeCast S8x50000x128 y shapeCasts_S400000x128_S8x50000x128 (ix3 s n κ) = y (ix2 (Cert.Spec.slot s n) κ) :=
  shapeCast_apply y shapeCasts_S400000x128_S8x50000x128 (ix3 s n κ) (ix2 (Cert.Spec.slot s n) κ) (by
    rewrite [Shape.rowMajor_val_three, Shape.rowMajor_val_two]
    show (s.val * 50000 + n.val) * 128 + κ.val = (s.val * 50000 + n.val) * 128 + κ.val
    rfl)

/-- The host's quotient at an index is the quotient of the elements. -/
theorem hostDivf_apply {s : Shape} {φ : FTy} (a b : FVec Ideal s φ) (i : s.Idx) :
    Host.divf a b i = Ideal.div (a i) (b i) := rfl

/-- The row scatter with addition whose index array is a word vector laid out as one column, read at (q, k): the
    operand's entry plus the sum of the updates' entries (e, k) over the rows e whose word, read signed, is q. -/
theorem scatter_col_apply {M D : Nat} (d : ScatterDims ⟨2, ![M, D]⟩ S500000x1 ⟨2, ![500000, D]⟩)
    (h1 : d.updateWindowDims = [1]) (h2 : d.insertedWindowDims = [0]) (h3 : d.scatterDimsToOperandDims = [0])
    (h4 : d.indexVectorDim = 1)
    (x : FVec Ideal ⟨2, ![M, D]⟩ .f32) (v : IVec S500000 32) (upd : FVec Ideal ⟨2, ![500000, D]⟩ .f32) (q : Fin M) (k : Fin D) :
    Host.scatterAdd (F := Ideal) d x (broadcastInDim S500000x1 ![0] bcast_S500000_S500000x1_0 v) upd (ix2 q k)
      = x (ix2 q k) + ∑ e ∈ Finset.univ.filter (fun e : Fin 500000 => (v (ix1 e)).toInt = (q.val : Int)), upd (ix2 e k) := by
  have hf : Finset.univ.filter (fun e : Fin 500000 =>
        (broadcastInDim S500000x1 ![0] bcast_S500000_S500000x1_0 v (ix2 e (0 : Fin 1))).toInt = (q.val : Int))
      = Finset.univ.filter (fun e : Fin 500000 => (v (ix1 e)).toInt = (q.val : Int)) :=
    Finset.filter_congr fun e _ => by rw [col_apply]
  rw [Cert.LibScatter.scatterAdd_rows_apply d h1 h2 h3 h4, hf]

/-- Operand 0, the grouped source rows: entry (s, n, κ) is the grouped sum of key s · 50000 + n. -/
theorem v18_apply (s : Fin 8) (n : Fin 50000) (κ : Fin 128) :
    (V m c main_v18 : S8x50000x128.Idx → EReal) (ix3 s n κ)
      = Cert.Spec.grouped (xs (a0 m c) (a1 m c)) (dstw (a1 m c)) (a2 m c) (Cert.Spec.slot s n) κ := by
  rw [v18_eq, truncf_apply, regroup_apply,
    scatter_col_apply scatter_S400000x128_S500000x1_S500000x128_1_0_0_1 rfl rfl rfl rfl, splat_apply]
  have hf : Finset.univ.filter (fun e : Fin 500000 =>
        ((addi (dstw (a1 m c)) (muli (broadcastInDim S500000 ![] bcast_S_S500000 (constantI S_ 32 50000#32)) (a2 m c)))
          (ix1 e)).toInt = ((Cert.Spec.slot s n).val : Int))
      = Finset.univ.filter (fun e : Fin 500000 =>
        (dstw (a1 m c) (ix1 e) + 50000#32 * a2 m c (ix1 e)).toInt = ((Cert.Spec.slot s n).val : Int)) :=
    Finset.filter_congr fun e _ => by rw [key_apply]
  rw [hf]
  unfold Cert.Spec.grouped Cert.Spec.keyed
  rfl

/-- Operand 1, the relation matrices transposed: entry (s, κ, j) is the argument's (s, j, κ). -/
theorem v29_apply (s : Fin 8) (κ j : Fin 128) :
    (V m c main_v29 : S8x128x128.Idx → EReal) (ix3 s κ j) = a5 m c (ix3 s j κ) := by
  rw [v29_eq, truncf_apply]
  exact transpose_apply [0, 2, 1] (a5 m c) transposes_S8x128x128_S8x128x128_0_2_1 (ix3 s κ j) (ix3 s j κ) (fun b => match b with
    | ⟨0, _⟩ => rfl
    | ⟨1, _⟩ => rfl
    | ⟨2, _⟩ => rfl)

/-- Operand 2, the node states. -/
theorem v27_apply (n : Fin 50000) (κ : Fin 128) :
    (V m c main_v27 : S50000x128.Idx → EReal) (ix2 n κ) = a0 m c (ix2 n κ) := by
  rw [v27_eq, truncf_apply]

/-- Operand 3, the reciprocal of the clamped in-degree. -/
theorem v26_apply (n : Fin 50000) :
    (V m c main_v26 : S50000x1.Idx → EReal) (ix2 n (0 : Fin 1))
      = Ideal.div Cert.Spec.onef (max (Cert.Spec.deg (dstw (a1 m c)) n) Cert.Spec.onef) := by
  rw [v26_eq, hostDivf_apply, maximumf_apply,
    scatter_col_apply scatter_S50000x1_S500000x1_S500000x1_1_0_0_1 rfl rfl rfl rfl, splat_apply, splat_apply,
    Finset.sum_congr rfl fun (e : Fin 500000) _ => splat_apply bcast_S_S500000x1 0x3F800000#32 (ix2 e (0 : Fin 1))]
  rfl

/-- Operand 4, the self matrix transposed: entry (κ, j) is the argument's (j, κ). -/
theorem v31_apply (κ j : Fin 128) :
    (V m c main_v31 : S128x128.Idx → EReal) (ix2 κ j) = a3 m c (ix2 j κ) := by
  rw [v31_eq, truncf_apply]
  exact transpose_apply [1, 0] (a3 m c) transposes_S128x128_S128x128_1_0 (ix2 κ j) (ix2 j κ) (fun b => match b with
    | ⟨0, _⟩ => rfl
    | ⟨1, _⟩ => rfl)

/-- Operand 5, the bias as a row. -/
theorem v32_apply (j : Fin 128) :
    (V m c main_v32 : S1x128.Idx → EReal) (ix2 (0 : Fin 1) j) = a4 m c (ix1 j) := by
  rw [v32_eq]
  exact shapeCast_apply (a4 m c) shapeCasts_S128_S1x128 (ix2 (0 : Fin 1) j) (ix1 j) (by
    rewrite [Shape.rowMajor_val_one, Shape.rowMajor_val_two]
    show j.val = 0 * 128 + j.val
    omega)

end Cert.KernelHost

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.KernelBody.lean ====
/-
  The body's arithmetic, entry by entry. One grid point adds to the accumulator block the product of a block of the
  grouped source rows by a relation's matrix; the last point of a run of eight multiplies the accumulated block by
  the reciprocal degree column, adds the block of node states times the self matrix and the bias row, and clamps at 0.
-/
import proofs.«403347_j72756745994393_3_alg».proof.Proof.Gen.KernelIdeal.Skeleton
import proofs.«403347_j72756745994393_3_alg».proof.Proof.Spec
import proofs.«403347_j72756745994393_3_alg».proof.Proof.LibDot
import Idealize.ShloMosaic.Lib.Pipeline.Value
import Idealize.ShloMosaic.Lib.ValueLayout

noncomputable section

open scoped BigOperators

namespace Cert.KernelBody

open Cert.KernelIdeal Cert.KernelIdeal.Gen Idealize.ShloMosaic Idealize.ShloMosaic.ValueIdx

/-- The block the first point of a run starts from: zero everywhere. -/
theorem pay1_apply (l : Fin 10000) (j : Fin 128) : (k0_pay1 (F := Ideal)) (ix2 l j) = Cert.Spec.zf := rfl

/-- ONE POINT'S ACCUMULATION at (l, j): the accumulator's entry plus Σ_κ rows (0, l, κ) · matrix (0, κ, j). -/
theorem pay2_apply (x0 : FVec Ideal S1x10000x128 .bf16) (x1 : FVec Ideal S1x128x128 .bf16)
    (acc : FVec Ideal S10000x128 .f32) (l : Fin 10000) (j : Fin 128) :
    k0_pay2 (F := Ideal) x0 x1 acc (ix2 l j)
      = acc (ix2 l j) + (Cert.Spec.zf + ∑ κ : Fin 128, x0 (ix3 (0 : Fin 1) l κ) * x1 (ix3 (0 : Fin 1) κ j)) := by
  unfold k0_pay2
  rw [addf_apply, shapeCast_self]
  refine congrArg (acc (ix2 l j) + ·) ?_
  refine (Cert.LibDot.matmul_rows_apply dot_S10000x128_S128x128_S10000x128_1_0_0_1_n_n rfl rfl rfl rfl rfl rfl none
    _ _ _ l j).trans ?_
  rw [constant_apply]
  refine congrArg (Cert.Spec.zf + ·) (Finset.sum_congr rfl fun κ _ => ?_)
  rw [shapeCast_1ab_ab_apply, shapeCast_1ab_ab_apply]

/-- THE LAST POINT'S EPILOGUE at (l, j): (Σ_κ states (l, κ) · self (κ, j) + bias (0, j)) + accumulated (l, j) ·
    reciprocal (l, 0), clamped at 0. -/
theorem pay3_apply (acc : FVec Ideal S10000x128 .f32) (x3 : FVec Ideal S10000x1 .f32)
    (x2 : FVec Ideal S10000x128 .bf16) (x4 : FVec Ideal S128x128 .bf16) (x5 : FVec Ideal S1x128 .f32)
    (l : Fin 10000) (j : Fin 128) :
    k0_pay3 (F := Ideal) acc x3 x2 x4 x5 (ix2 l j)
      = max (((Cert.Spec.zf + ∑ κ : Fin 128, x2 (ix2 l κ) * x4 (ix2 κ j)) + x5 (ix2 (0 : Fin 1) j))
          + acc (ix2 l j) * x3 (ix2 l (0 : Fin 1))) Cert.Spec.zf := by
  unfold k0_pay3
  rw [maximumf_apply, addf_apply, addf_apply, mulf_apply]
  simp only [shapeCast_self]
  refine congrArg₂ max (congrArg₂ (· + ·) (congrArg₂ (· + ·) ?_ ?_) (congrArg₂ (· * ·) rfl ?_)) rfl
  · refine (Cert.LibDot.matmul_rows_apply dot_S10000x128_S128x128_S10000x128_1_0_0_1_n_n rfl rfl rfl rfl rfl rfl none
      _ _ _ l j).trans ?_
    rw [constant_apply]
  · exact broadcastTo_1b_ab_apply x5 broadcasts_S1x128_S10000x128 l j
  · refine broadcastTo_apply x3 broadcasts_S10000x1_S10000x128 (ix2 l j) (ix2 l (0 : Fin 1)) fun ax => ?_
    match ax with
    | ⟨0, _⟩ => rfl
    | ⟨1, _⟩ => rfl

end Cert.KernelBody

end
-- ==== Proof.KernelVal.lean ====
/-
  The kernel's result, read entry by entry: at node n and feature j it is the grouped-first value of the
  specification. A run of eight grid points serves one block of 10000 nodes, point s of the run adding the block of
  relation s's grouped source rows times relation s's matrix; the last point normalises by the reciprocal degree,
  adds the nodes' own transform and the bias, and clamps at 0.
-/
import proofs.«403347_j72756745994393_3_alg».proof.Proof.Gen.KernelIdeal.Value
import proofs.«403347_j72756745994393_3_alg».proof.Proof.KernelHost
import proofs.«403347_j72756745994393_3_alg».proof.Proof.KernelBody
import proofs.«403347_j72756745994393_3_alg».proof.Proof.Spec
import Idealize.ShloMosaic.PureOps.Ideal.Laws

noncomputable section

open scoped BigOperators

namespace Cert.KernelVal

open Cert.KernelIdeal Cert.KernelIdeal.Gen Cert.KernelIdeal.Value Cert.KernelHost Cert.KernelBody
  Idealize.ShloMosaic Idealize.ShloMosaic.TcCoe Idealize.ShloMosaic.ValueIdx Idealize.SL.Sem

/-- Arithmetic of the schedule: point 8 · q + s is relation s of node block q. -/
theorem point_mod (q s : ℕ) (hs : s < 8) : s = (8 * q + s) % 8 := by omega
theorem point_div (q s : ℕ) (hs : s < 8) : (8 * q + s) / 8 = q := by omega
theorem point_row (q s n l : ℕ) (hs : s < 8) (hn : n = q * 10000 + l) : n = (8 * q + s) / 8 * 10000 + l := by
  rw [point_div q s hs]
  exact hn
theorem node_split (n : ℕ) : n = n / 10000 * 10000 + n % 10000 := (Nat.div_add_mod' n 10000).symm

variable (m : (ℓ : Loc nD τ sig) → Buf (Elt Ideal) ℓ) (c : Dev nD)

/-- The printed index maps, decided over the 40 grid points: point t is relation t % 8 of node block t / 8. -/
theorem idx_facts : ∀ t : Fin cfg0.N,
    win0_0.index t (0 : Fin 3) = t.val % 8 ∧ win0_0.index t (1 : Fin 3) = t.val / 8 ∧ win0_0.index t (2 : Fin 3) = 0
    ∧ win0_1.index t (0 : Fin 3) = t.val % 8 ∧ win0_1.index t (1 : Fin 3) = 0 ∧ win0_1.index t (2 : Fin 3) = 0
    ∧ win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The six operand blocks at a point, at their literal shapes. -/
abbrev blk0 (t : Fin cfg0.N) : FVec Ideal S1x10000x128 .bf16 := iblk m c 0 t
abbrev blk1 (t : Fin cfg0.N) : FVec Ideal S1x128x128 .bf16 := iblk m c 1 t
abbrev blk2 (t : Fin cfg0.N) : FVec Ideal S10000x128 .bf16 := iblk m c 2 t
abbrev blk3 (t : Fin cfg0.N) : FVec Ideal S10000x1 .f32 := iblk m c 3 t
abbrev blk4 (t : Fin cfg0.N) : FVec Ideal S128x128 .bf16 := iblk m c 4 t
abbrev blk5 (t : Fin cfg0.N) : FVec Ideal S1x128 .f32 := iblk m c 5 t

theorem N40 : cfg0.N = 40 := N_0

/-- Block 0 at point t holds rows t / 8 · 10000 + l of relation t % 8 of the grouped array. -/
theorem blk0_apply (t : Fin cfg0.N) (l : Fin 10000) (κ : Fin 128) (s : Fin 8) (n : Fin 50000)
    (hs : s.val = t.val % 8) (hn : n.val = t.val / 8 * 10000 + l.val) :
    blk0 m c t (ix3 (0 : Fin 1) l κ) = (V m c main_v18 : S8x50000x128.Idx → EReal) (ix3 s n κ) := by
  obtain ⟨e0, e1, e2, -⟩ := idx_facts t
  show V m c main_v18 (((cfg0.win 0).blk t).view.emb (ix3 (0 : Fin 1) l κ)) = V m c main_v18 (ix3 s n κ)
  have h0 : ((cfg0.win 0).blk t).view.emb (ix3 (0 : Fin 1) l κ) = ix3 s n κ := by
    funext a; apply Fin.ext
    match a with
    | ⟨0, _⟩ => show win0_0.index t (0 : Fin 3) * 1 + 1 * 0 = s.val; omega
    | ⟨1, _⟩ => show win0_0.index t (1 : Fin 3) * 10000 + 1 * l.val = n.val; omega
    | ⟨2, _⟩ => show win0_0.index t (2 : Fin 3) * 128 + 1 * κ.val = κ.val; omega
  rw [h0]

/-- Block 1 at point t is relation t % 8's transposed matrix. -/
theorem blk1_apply (t : Fin cfg0.N) (κ j : Fin 128) (s : Fin 8) (hs : s.val = t.val % 8) :
    blk1 m c t (ix3 (0 : Fin 1) κ j) = (V m c main_v29 : S8x128x128.Idx → EReal) (ix3 s κ j) := by
  obtain ⟨-, -, -, e0, e1, e2, -⟩ := idx_facts t
  show V m c main_v29 (((cfg0.win 1).blk t).view.emb (ix3 (0 : Fin 1) κ j)) = V m c main_v29 (ix3 s κ j)
  have h0 : ((cfg0.win 1).blk t).view.emb (ix3 (0 : Fin 1) κ j) = ix3 s κ j := by
    funext a; apply Fin.ext
    match a with
    | ⟨0, _⟩ => show win0_1.index t (0 : Fin 3) * 1 + 1 * 0 = s.val; omega
    | ⟨1, _⟩ => show win0_1.index t (1 : Fin 3) * 128 + 1 * κ.val = κ.val; omega
    | ⟨2, _⟩ => show win0_1.index t (2 : Fin 3) * 128 + 1 * j.val = j.val; omega
  rw [h0]

/-- Block 2 at point t holds rows t / 8 · 10000 + l of the node states. -/
theorem blk2_apply (t : Fin cfg0.N) (l : Fin 10000) (κ : Fin 128) (n : Fin 50000)
    (hn : n.val = t.val / 8 * 10000 + l.val) :
    blk2 m c t (ix2 l κ) = (V m c main_v27 : S50000x128.Idx → EReal) (ix2 n κ) := by
  obtain ⟨-, -, -, -, -, -, e0, e1, -⟩ := idx_facts t
  show V m c main_v27 (((cfg0.win 2).blk t).view.emb (ix2 l κ)) = V m c main_v27 (ix2 n κ)
  have h0 : ((cfg0.win 2).blk t).view.emb (ix2 l κ) = ix2 n κ := by
    funext a; apply Fin.ext
    match a with
    | ⟨0, _⟩ => show win0_2.index t (0 : Fin 2) * 10000 + 1 * l.val = n.val; omega
    | ⟨1, _⟩ => show win0_2.index t (1 : Fin 2) * 128 + 1 * κ.val = κ.val; omega
  rw [h0]

/-- Block 3 at point t holds rows t / 8 · 10000 + l of the reciprocal degree column. -/
theorem blk3_apply (t : Fin cfg0.N) (l : Fin 10000) (n : Fin 50000) (hn : n.val = t.val / 8 * 10000 + l.val) :
    blk3 m c t (ix2 l (0 : Fin 1)) = (V m c main_v26 : S50000x1.Idx → EReal) (ix2 n (0 : Fin 1)) := by
  obtain ⟨-, -, -, -, -, -, -, -, e0, e1, -⟩ := idx_facts t
  show V m c main_v26 (((cfg0.win 3).blk t).view.emb (ix2 l (0 : Fin 1))) = V m c main_v26 (ix2 n (0 : Fin 1))
  have h0 : ((cfg0.win 3).blk t).view.emb (ix2 l (0 : Fin 1)) = ix2 n (0 : Fin 1) := by
    funext a; apply Fin.ext
    match a with
    | ⟨0, _⟩ => show win0_3.index t (0 : Fin 2) * 10000 + 1 * l.val = n.val; omega
    | ⟨1, _⟩ => show win0_3.index t (1 : Fin 2) * 1 + 1 * 0 = 0; omega
  rw [h0]

/-- Block 4 is the whole transposed self matrix at every point. -/
theorem blk4_apply (t : Fin cfg0.N) (κ j : Fin 128) :
    blk4 m c t (ix2 κ j) = (V m c main_v31 : S128x128.Idx → EReal) (ix2 κ j) := by
  obtain ⟨-, -, -, -, -, -, -, -, -, -, e0, e1, -⟩ := idx_facts t
  show V m c main_v31 (((cfg0.win 4).blk t).view.emb (ix2 κ j)) = V m c main_v31 (ix2 κ j)
  have h0 : ((cfg0.win 4).blk t).view.emb (ix2 κ j) = ix2 κ j := by
    funext a; apply Fin.ext
    match a with
    | ⟨0, _⟩ => show win0_4.index t (0 : Fin 2) * 128 + 1 * κ.val = κ.val; omega
    | ⟨1, _⟩ => show win0_4.index t (1 : Fin 2) * 128 + 1 * j.val = j.val; omega
  rw [h0]

/-- Block 5 is the whole bias row at every point. -/
theorem blk5_apply (t : Fin cfg0.N) (j : Fin 128) :
    blk5 m c t (ix2 (0 : Fin 1) j) = (V m c main_v32 : S1x128.Idx → EReal) (ix2 (0 : Fin 1) j) := by
  obtain ⟨-, -, -, -, -, -, -, -, -, -, -, -, e0, e1⟩ := idx_facts t
  show V m c main_v32 (((cfg0.win 5).blk t).view.emb (ix2 (0 : Fin 1) j)) = V m c main_v32 (ix2 (0 : Fin 1) j)
  have h0 : ((cfg0.win 5).blk t).view.emb (ix2 (0 : Fin 1) j) = ix2 (0 : Fin 1) j := by
    funext a; apply Fin.ext
    match a with
    | ⟨0, _⟩ => show win0_5.index t (0 : Fin 2) * 1 + 1 * 0 = 0; omega
    | ⟨1, _⟩ => show win0_5.index t (1 : Fin 2) * 128 + 1 * j.val = j.val; omega
  rw [h0]

/-! ## The run of eight points, folded -/

/-- One point's addend to the accumulator block: the block of grouped rows times the relation's matrix. -/
def addend (x0 : FVec Ideal S1x10000x128 .bf16) (x1 : FVec Ideal S1x128x128 .bf16) : FVec Ideal S10000x128 .f32 :=
  k0_pay2 (F := Ideal) x0 x1 (fun _ => (0 : EReal))

theorem addend_apply (x0 : FVec Ideal S1x10000x128 .bf16) (x1 : FVec Ideal S1x128x128 .bf16) (l : Fin 10000) (j : Fin 128) :
    addend x0 x1 (ix2 l j) = Cert.Spec.zf + ∑ κ : Fin 128, x0 (ix3 (0 : Fin 1) l κ) * x1 (ix3 (0 : Fin 1) κ j) := by
  unfold addend
  rw [pay2_apply]
  exact zero_add _

/-- A point's accumulation adds its addend to what the point before left. -/
theorem pay2_split (x0 : FVec Ideal S1x10000x128 .bf16) (x1 : FVec Ideal S1x128x128 .bf16)
    (acc : FVec Ideal S10000x128 .f32) (i : S10000x128.Idx) :
    k0_pay2 (F := Ideal) x0 x1 acc i = acc i + addend x0 x1 i := by
  obtain ⟨l, j, rfl⟩ : ∃ (l : Fin 10000) (j : Fin 128), i = ix2 l j := ⟨i 0, i 1, eq_ix2 i⟩
  rw [pay2_apply, addend_apply]

/-- Point n's addend, for every natural n (zero past the grid, where it is never used). -/
def addAt (n' : ℕ) (i : S10000x128.Idx) : EReal :=
  if h : n' < cfg0.N then addend (blk0 m c ⟨n', h⟩) (blk1 m c ⟨n', h⟩) i else 0

/-- After the first seven points of a run the accumulator block holds the sum of their addends. -/
theorem acc6 (b : ℕ) (hb : b % 8 = 0) (h : b + 6 < cfg0.N) (i : S10000x128.Idx) :
    Pipeline.accAt (reset6 m c) (step6 m c) b 6 h i = Cert.Spec.zf + ∑ s ∈ Finset.range 7, addAt m c (b + s) i := by
  refine Pipeline.accAt_add_apply (ι := S10000x128.Idx) (β := EReal) (reset6 m c) (step6 m c) (fun _ => Cert.Spec.zf)
    (addAt m c) b 6 ?_ ?_ 6 le_rfl h i
  · intro hlt i
    unfold reset6 addAt
    rw [dif_pos hlt]
    refine (pay2_split (blk0 m c ⟨b, hlt⟩) (blk1 m c ⟨b, hlt⟩) (k0_pay1 (F := Ideal)) i).trans ?_
    rfl
  · intro n' hn acc i h1 h2
    unfold step6 addAt
    rw [if_pos ⟨by omega, by omega⟩, dif_pos hn]
    exact pay2_split (blk0 m c ⟨n', hn⟩) (blk1 m c ⟨n', hn⟩) acc i

/-- THE WHOLE RUN at (l, j): the epilogue over the sum of the eight points' addends. -/
theorem fold_apply (b : ℕ) (hb : b % 8 = 0) (h : b + 7 < cfg0.N) (l : Fin 10000) (j : Fin 128) :
    Pipeline.accAt (reset6 m c) (step6 m c) b 7 h (ix2 l j)
      = max (((Cert.Spec.zf + ∑ κ : Fin 128, blk2 m c ⟨b + 7, h⟩ (ix2 l κ) * blk4 m c ⟨b + 7, h⟩ (ix2 κ j))
            + blk5 m c ⟨b + 7, h⟩ (ix2 (0 : Fin 1) j))
          + (Cert.Spec.zf + ∑ s ∈ Finset.range 8, addAt m c (b + s) (ix2 l j)) * blk3 m c ⟨b + 7, h⟩ (ix2 l (0 : Fin 1)))
          Cert.Spec.zf := by
  rw [Pipeline.accAt_succ]
  unfold step6
  rw [if_neg (by omega), if_pos (by omega)]
  refine (pay3_apply (k0_pay2 (F := Ideal) (blk0 m c ⟨b + 7, h⟩) (blk1 m c ⟨b + 7, h⟩)
      (Pipeline.accAt (reset6 m c) (step6 m c) b 6 (Nat.lt_of_succ_lt h)))
    (blk3 m c ⟨b + 7, h⟩) (blk2 m c ⟨b + 7, h⟩) (blk4 m c ⟨b + 7, h⟩) (blk5 m c ⟨b + 7, h⟩) l j).trans ?_
  have e7 : addAt m c (b + 7) (ix2 l j) = addend (blk0 m c ⟨b + 7, h⟩) (blk1 m c ⟨b + 7, h⟩) (ix2 l j) := by
    unfold addAt
    rw [dif_pos h]
  have hacc : k0_pay2 (F := Ideal) (blk0 m c ⟨b + 7, h⟩) (blk1 m c ⟨b + 7, h⟩)
        (Pipeline.accAt (reset6 m c) (step6 m c) b 6 (Nat.lt_of_succ_lt h)) (ix2 l j)
      = Cert.Spec.zf + ∑ s ∈ Finset.range 8, addAt m c (b + s) (ix2 l j) := by
    rw [pay2_split, acc6 m c b hb, Finset.sum_range_succ _ 7, e7, add_assoc]
  rw [hacc]

/-! ## The array, read -/

/-- The run of node block q at (l, j), for node n = q · 10000 + l: the specification's grouped-first value. -/
theorem run_apply (q : ℕ) (hlt : 8 * q + 7 < cfg0.N) (l : Fin 10000) (j : Fin 128) (n : Fin 50000)
    (hn : n.val = q * 10000 + l.val) :
    Pipeline.accAt (reset6 m c) (step6 m c) (8 * q) 7 hlt (ix2 l j)
      = Cert.Spec.kerOut (xs (a0 m c) (a1 m c)) (a0 m c) (dstw (a1 m c)) (a2 m c) (a3 m c) (a4 m c) (a5 m c) n j := by
  have hN : cfg0.N = 40 := N_0
  rw [fold_apply m c (8 * q) (by omega) hlt]
  have hn7 : n.val = (8 * q + 7) / 8 * 10000 + l.val := point_row q 7 n.val l.val (by decide) hn
  have hsum : ∑ s ∈ Finset.range 8, addAt m c (8 * q + s) (ix2 l j)
      = ∑ s : Fin 8, (Cert.Spec.zf + ∑ κ : Fin 128,
          Cert.Spec.grouped (xs (a0 m c) (a1 m c)) (dstw (a1 m c)) (a2 m c) (Cert.Spec.slot s n) κ * a5 m c (ix3 s j κ)) := by
    rw [Finset.sum_range]
    refine Finset.sum_congr rfl fun s _ => ?_
    have hs := s.isLt
    have hts : 8 * q + s.val < cfg0.N := by omega
    unfold addAt
    rw [dif_pos hts, addend_apply]
    refine congrArg (Cert.Spec.zf + ·) (Finset.sum_congr rfl fun κ _ => ?_)
    rw [blk0_apply m c ⟨_, hts⟩ l κ s n (point_mod q s.val hs) (point_row q s.val n.val l.val hs hn),
      blk1_apply m c ⟨_, hts⟩ κ j s (point_mod q s.val hs),
      v18_apply, v29_apply]
  rw [hsum]
  have hself : ∑ κ : Fin 128, blk2 m c ⟨8 * q + 7, hlt⟩ (ix2 l κ) * blk4 m c ⟨8 * q + 7, hlt⟩ (ix2 κ j)
      = ∑ κ : Fin 128, a0 m c (ix2 n κ) * a3 m c (ix2 j κ) := by
    refine Finset.sum_congr rfl fun κ _ => ?_
    rw [blk2_apply m c ⟨_, hlt⟩ l κ n hn7, blk4_apply, v27_apply, v31_apply]
  rw [hself, blk5_apply, v32_apply, blk3_apply m c ⟨_, hlt⟩ l n hn7, v26_apply]
  unfold Cert.Spec.kerOut Cert.Spec.kerAgg Cert.Spec.selfTerm
  simp only [Ideal.ofBits_zero_f32, zero_add]

/-- THE KERNEL AT (n, j): the specification's grouped-first value. -/
theorem G6_apply (n : Fin 50000) (j : Fin 128) :
    G6 m c (ix2 n j)
      = Cert.Spec.kerOut (xs (a0 m c) (a1 m c)) (a0 m c) (dstw (a1 m c)) (a2 m c) (a3 m c) (a4 m c) (a5 m c) n j := by
  have hn := n.isLt
  have hj := j.isLt
  have hN : cfg0.N = 40 := N_0
  have hr : run6Of (ix2 n j) = n.val / 10000 := by
    show 1 * (n.val / 10000 - 0) + 1 * (j.val / 128 - 0) = _
    omega
  have hlt : 8 * run6Of (ix2 n j) + 7 < cfg0.N := by rw [hr, hN]; omega
  have hloc : loc6Of (ix2 n j) = ix2 (⟨n.val % 10000, Nat.mod_lt _ (by decide)⟩ : Fin 10000) j := by
    funext a
    apply Fin.ext
    match a with
    | ⟨0, _⟩ => rfl
    | ⟨1, _⟩ => exact Nat.mod_eq_of_lt hj
  unfold G6
  rw [dif_pos hlt, hloc]
  refine run_apply m c (run6Of (ix2 n j)) hlt _ j n ?_
  rw [hr]
  exact node_split n.val

end Cert.KernelVal

end
-- ==== Proof.RefVal.lean ====
/-
  The reference's result, read entry by entry: at node n and feature j it is the edge-by-edge value of the
  specification — every edge's gathered source row against the matrix its relation word selects, added over the
  edges whose destination word is n, divided by the clamped in-degree, added to the node's own transform and bias,
  and clamped at 0.
-/
import proofs.«403347_j72756745994393_3_alg».proof.Proof.Gen.ReferenceIdeal.Read
import proofs.«403347_j72756745994393_3_alg».proof.Proof.Spec
import proofs.«403347_j72756745994393_3_alg».proof.Proof.LibDot
import proofs.«403347_j72756745994393_3_alg».proof.Proof.LibScatter

noncomputable section

open scoped BigOperators

namespace Cert.RefVal

open Cert.ReferenceIdeal Cert.ReferenceIdeal.Gen Cert.ReferenceIdeal.Read Idealize.ShloMosaic Idealize.ShloMosaic.ValueIdx

/-- A choice on the bit "c = r" between a value and the zero word is the value when c = r and 0 otherwise. -/
theorem sel (c r : BitVec 32) (a : EReal) :
    Scalar.select (IntOp.cmpi .eq c r) a (Ideal.ofBits .f32 0x00000000#32) = if c = r then a else 0 := by
  by_cases h : c = r
  · rw [if_pos h, h]
    have : IntOp.cmpi .eq r r = 1#1 := by
      show BitVec.ofBool (r == r) = 1#1
      rw [beq_self_eq_true]; rfl
    rw [this, select_one]
  · rw [if_neg h]
    have : IntOp.cmpi .eq c r = 0#1 := by
      show BitVec.ofBool (c == r) = 0#1
      rw [beq_eq_false_iff_ne.mpr h]; rfl
    rw [this, select_zero, Ideal.ofBits_zero_f32]

/-- Relation 0's matrix, sliced out, flattened and transposed, read at (κ, j): entry (0, j, κ) of the relation matrices. -/
theorem wt0 (x5 : FVec Ideal S8x128x128 .f32) (j κ : Fin 128) :
    val_main_v14 (F := Ideal) x5 (ix2 κ j) = x5 (ix3 (0 : Fin 8) j κ) := by
  rw [val_main_v14_apply, val_main_v13_apply, val_main_v12_apply]
  refine congrArg x5 (funext fun a => Fin.ext ?_)
  have hj := j.isLt
  have hk := κ.isLt
  match a with
  | ⟨0, _⟩ => rfl
  | ⟨1, _⟩ => show (j.val * 128 + κ.val) / 128 % 128 = j.val; omega
  | ⟨2, _⟩ => show (j.val * 128 + κ.val) % 128 = κ.val; omega

/-- Relation 0's term at (e, j): the edge's source row against the relation's matrix if the edge's word is 0, else 0. -/
theorem w0 (x0 : FVec Ideal S50000x128 .f32) (x1 : IVec S2x500000 32) (x2 : IVec S500000 32)
    (x5 : FVec Ideal S8x128x128 .f32) (e : Fin 500000) (j : Fin 128) :
    val_main_v19 (F := Ideal) x0 x1 x2 x5 (ix2 e j)
      = if x2 (ix1 e) = 0#32 then ∑ κ : Fin 128, val_main_v10 (F := Ideal) x0 x1 (ix2 e κ) * x5 (ix3 (0 : Fin 8) j κ) else 0 := by
  rw [val_main_v19_apply, val_main_call0_v1_apply, val_main_v18_apply, val_main_v17_apply, val_main_v16_apply,
    val_main_c_1_apply, val_main_call0_v2_apply, val_main_call0_v0_apply, val_main_cst_2_apply]
  have hd : val_main_v15 (F := Ideal) x0 x1 x5 (ix2 e j)
      = ∑ κ : Fin 128, val_main_v10 (F := Ideal) x0 x1 (ix2 e κ) * x5 (ix3 (0 : Fin 8) j κ) := by
    unfold val_main_v15
    refine (Cert.LibDot.dot_rows_apply _ rfl rfl rfl rfl rfl rfl none _ _ e j).trans ?_
    exact Finset.sum_congr rfl fun κ _ => congrArg (_ * ·) (wt0 x5 j κ)
  rw [hd]
  have hi : idx_main_v18 (idx_main_call0_v1 (ix2 e j)) = ix1 e := funext fun a => match a with | ⟨0, _⟩ => rfl
  rw [hi]
  exact sel _ _ _

/-- Relation 1's matrix, sliced out, flattened and transposed, read at (κ, j): entry (1, j, κ) of the relation matrices. -/
theorem wt1 (x5 : FVec Ideal S8x128x128 .f32) (j κ : Fin 128) :
    val_main_v23 (F := Ideal) x5 (ix2 κ j) = x5 (ix3 (1 : Fin 8) j κ) := by
  rw [val_main_v23_apply, val_main_v22_apply, val_main_v21_apply]
  refine congrArg x5 (funext fun a => Fin.ext ?_)
  have hj := j.isLt
  have hk := κ.isLt
  match a with
  | ⟨0, _⟩ => rfl
  | ⟨1, _⟩ => show (j.val * 128 + κ.val) / 128 % 128 = j.val; omega
  | ⟨2, _⟩ => show (j.val * 128 + κ.val) % 128 = κ.val; omega

/-- Relation 1's term at (e, j): the edge's source row against the relation's matrix if the edge's word is 1, else 0. -/
theorem w1 (x0 : FVec Ideal S50000x128 .f32) (x1 : IVec S2x500000 32) (x2 : IVec S500000 32)
    (x5 : FVec Ideal S8x128x128 .f32) (e : Fin 500000) (j : Fin 128) :
    val_main_v28 (F := Ideal) x0 x1 x2 x5 (ix2 e j)
      = if x2 (ix1 e) = 1#32 then ∑ κ : Fin 128, val_main_v10 (F := Ideal) x0 x1 (ix2 e κ) * x5 (ix3 (1 : Fin 8) j κ) else 0 := by
  rw [val_main_v28_apply, val_main_call1_v1_apply, val_main_v27_apply, val_main_v26_apply, val_main_v25_apply,
    val_main_c_3_apply, val_main_call1_v2_apply, val_main_call1_v0_apply, val_main_cst_4_apply]
  have hd : val_main_v24 (F := Ideal) x0 x1 x5 (ix2 e j)
      = ∑ κ : Fin 128, val_main_v10 (F := Ideal) x0 x1 (ix2 e κ) * x5 (ix3 (1 : Fin 8) j κ) := by
    unfold val_main_v24
    refine (Cert.LibDot.dot_rows_apply _ rfl rfl rfl rfl rfl rfl none _ _ e j).trans ?_
    exact Finset.sum_congr rfl fun κ _ => congrArg (_ * ·) (wt1 x5 j κ)
  rw [hd]
  have hi : idx_main_v27 (idx_main_call1_v1 (ix2 e j)) = ix1 e := funext fun a => match a with | ⟨0, _⟩ => rfl
  rw [hi]
  exact sel _ _ _

/-- Relation 2's matrix, sliced out, flattened and transposed, read at (κ, j): entry (2, j, κ) of the relation matrices. -/
theorem wt2 (x5 : FVec Ideal S8x128x128 .f32) (j κ : Fin 128) :
    val_main_v32 (F := Ideal) x5 (ix2 κ j) = x5 (ix3 (2 : Fin 8) j κ) := by
  rw [val_main_v32_apply, val_main_v31_apply, val_main_v30_apply]
  refine congrArg x5 (funext fun a => Fin.ext ?_)
  have hj := j.isLt
  have hk := κ.isLt
  match a with
  | ⟨0, _⟩ => rfl
  | ⟨1, _⟩ => show (j.val * 128 + κ.val) / 128 % 128 = j.val; omega
  | ⟨2, _⟩ => show (j.val * 128 + κ.val) % 128 = κ.val; omega

/-- Relation 2's term at (e, j): the edge's source row against the relation's matrix if the edge's word is 2, else 0. -/
theorem w2 (x0 : FVec Ideal S50000x128 .f32) (x1 : IVec S2x500000 32) (x2 : IVec S500000 32)
    (x5 : FVec Ideal S8x128x128 .f32) (e : Fin 500000) (j : Fin 128) :
    val_main_v37 (F := Ideal) x0 x1 x2 x5 (ix2 e j)
      = if x2 (ix1 e) = 2#32 then ∑ κ : Fin 128, val_main_v10 (F := Ideal) x0 x1 (ix2 e κ) * x5 (ix3 (2 : Fin 8) j κ) else 0 := by
  rw [val_main_v37_apply, val_main_call2_v1_apply, val_main_v36_apply, val_main_v35_apply, val_main_v34_apply,
    val_main_c_5_apply, val_main_call2_v2_apply, val_main_call2_v0_apply, val_main_cst_6_apply]
  have hd : val_main_v33 (F := Ideal) x0 x1 x5 (ix2 e j)
      = ∑ κ : Fin 128, val_main_v10 (F := Ideal) x0 x1 (ix2 e κ) * x5 (ix3 (2 : Fin 8) j κ) := by
    unfold val_main_v33
    refine (Cert.LibDot.dot_rows_apply _ rfl rfl rfl rfl rfl rfl none _ _ e j).trans ?_
    exact Finset.sum_congr rfl fun κ _ => congrArg (_ * ·) (wt2 x5 j κ)
  rw [hd]
  have hi : idx_main_v36 (idx_main_call2_v1 (ix2 e j)) = ix1 e := funext fun a => match a with | ⟨0, _⟩ => rfl
  rw [hi]
  exact sel _ _ _

/-- Relation 3's matrix, sliced out, flattened and transposed, read at (κ, j): entry (3, j, κ) of the relation matrices. -/
theorem wt3 (x5 : FVec Ideal S8x128x128 .f32) (j κ : Fin 128) :
    val_main_v41 (F := Ideal) x5 (ix2 κ j) = x5 (ix3 (3 : Fin 8) j κ) := by
  rw [val_main_v41_apply, val_main_v40_apply, val_main_v39_apply]
  refine congrArg x5 (funext fun a => Fin.ext ?_)
  have hj := j.isLt
  have hk := κ.isLt
  match a with
  | ⟨0, _⟩ => rfl
  | ⟨1, _⟩ => show (j.val * 128 + κ.val) / 128 % 128 = j.val; omega
  | ⟨2, _⟩ => show (j.val * 128 + κ.val) % 128 = κ.val; omega

/-- Relation 3's term at (e, j): the edge's source row against the relation's matrix if the edge's word is 3, else 0. -/
theorem w3 (x0 : FVec Ideal S50000x128 .f32) (x1 : IVec S2x500000 32) (x2 : IVec S500000 32)
    (x5 : FVec Ideal S8x128x128 .f32) (e : Fin 500000) (j : Fin 128) :
    val_main_v46 (F := Ideal) x0 x1 x2 x5 (ix2 e j)
      = if x2 (ix1 e) = 3#32 then ∑ κ : Fin 128, val_main_v10 (F := Ideal) x0 x1 (ix2 e κ) * x5 (ix3 (3 : Fin 8) j κ) else 0 := by
  rw [val_main_v46_apply, val_main_call3_v1_apply, val_main_v45_apply, val_main_v44_apply, val_main_v43_apply,
    val_main_c_7_apply, val_main_call3_v2_apply, val_main_call3_v0_apply, val_main_cst_8_apply]
  have hd : val_main_v42 (F := Ideal) x0 x1 x5 (ix2 e j)
      = ∑ κ : Fin 128, val_main_v10 (F := Ideal) x0 x1 (ix2 e κ) * x5 (ix3 (3 : Fin 8) j κ) := by
    unfold val_main_v42
    refine (Cert.LibDot.dot_rows_apply _ rfl rfl rfl rfl rfl rfl none _ _ e j).trans ?_
    exact Finset.sum_congr rfl fun κ _ => congrArg (_ * ·) (wt3 x5 j κ)
  rw [hd]
  have hi : idx_main_v45 (idx_main_call3_v1 (ix2 e j)) = ix1 e := funext fun a => match a with | ⟨0, _⟩ => rfl
  rw [hi]
  exact sel _ _ _

/-- Relation 4's matrix, sliced out, flattened and transposed, read at (κ, j): entry (4, j, κ) of the relation matrices. -/
theorem wt4 (x5 : FVec Ideal S8x128x128 .f32) (j κ : Fin 128) :
    val_main_v50 (F := Ideal) x5 (ix2 κ j) = x5 (ix3 (4 : Fin 8) j κ) := by
  rw [val_main_v50_apply, val_main_v49_apply, val_main_v48_apply]
  refine congrArg x5 (funext fun a => Fin.ext ?_)
  have hj := j.isLt
  have hk := κ.isLt
  match a with
  | ⟨0, _⟩ => rfl
  | ⟨1, _⟩ => show (j.val * 128 + κ.val) / 128 % 128 = j.val; omega
  | ⟨2, _⟩ => show (j.val * 128 + κ.val) % 128 = κ.val; omega

/-- Relation 4's term at (e, j): the edge's source row against the relation's matrix if the edge's word is 4, else 0. -/
theorem w4 (x0 : FVec Ideal S50000x128 .f32) (x1 : IVec S2x500000 32) (x2 : IVec S500000 32)
    (x5 : FVec Ideal S8x128x128 .f32) (e : Fin 500000) (j : Fin 128) :
    val_main_v55 (F := Ideal) x0 x1 x2 x5 (ix2 e j)
      = if x2 (ix1 e) = 4#32 then ∑ κ : Fin 128, val_main_v10 (F := Ideal) x0 x1 (ix2 e κ) * x5 (ix3 (4 : Fin 8) j κ) else 0 := by
  rw [val_main_v55_apply, val_main_call4_v1_apply, val_main_v54_apply, val_main_v53_apply, val_main_v52_apply,
    val_main_c_9_apply, val_main_call4_v2_apply, val_main_call4_v0_apply, val_main_cst_10_apply]
  have hd : val_main_v51 (F := Ideal) x0 x1 x5 (ix2 e j)
      = ∑ κ : Fin 128, val_main_v10 (F := Ideal) x0 x1 (ix2 e κ) * x5 (ix3 (4 : Fin 8) j κ) := by
    unfold val_main_v51
    refine (Cert.LibDot.dot_rows_apply _ rfl rfl rfl rfl rfl rfl none _ _ e j).trans ?_
    exact Finset.sum_congr rfl fun κ _ => congrArg (_ * ·) (wt4 x5 j κ)
  rw [hd]
  have hi : idx_main_v54 (idx_main_call4_v1 (ix2 e j)) = ix1 e := funext fun a => match a with | ⟨0, _⟩ => rfl
  rw [hi]
  exact sel _ _ _

/-- Relation 5's matrix, sliced out, flattened and transposed, read at (κ, j): entry (5, j, κ) of the relation matrices. -/
theorem wt5 (x5 : FVec Ideal S8x128x128 .f32) (j κ : Fin 128) :
    val_main_v59 (F := Ideal) x5 (ix2 κ j) = x5 (ix3 (5 : Fin 8) j κ) := by
  rw [val_main_v59_apply, val_main_v58_apply, val_main_v57_apply]
  refine congrArg x5 (funext fun a => Fin.ext ?_)
  have hj := j.isLt
  have hk := κ.isLt
  match a with
  | ⟨0, _⟩ => rfl
  | ⟨1, _⟩ => show (j.val * 128 + κ.val) / 128 % 128 = j.val; omega
  | ⟨2, _⟩ => show (j.val * 128 + κ.val) % 128 = κ.val; omega

/-- Relation 5's term at (e, j): the edge's source row against the relation's matrix if the edge's word is 5, else 0. -/
theorem w5 (x0 : FVec Ideal S50000x128 .f32) (x1 : IVec S2x500000 32) (x2 : IVec S500000 32)
    (x5 : FVec Ideal S8x128x128 .f32) (e : Fin 500000) (j : Fin 128) :
    val_main_v64 (F := Ideal) x0 x1 x2 x5 (ix2 e j)
      = if x2 (ix1 e) = 5#32 then ∑ κ : Fin 128, val_main_v10 (F := Ideal) x0 x1 (ix2 e κ) * x5 (ix3 (5 : Fin 8) j κ) else 0 := by
  rw [val_main_v64_apply, val_main_call5_v1_apply, val_main_v63_apply, val_main_v62_apply, val_main_v61_apply,
    val_main_c_11_apply, val_main_call5_v2_apply, val_main_call5_v0_apply, val_main_cst_12_apply]
  have hd : val_main_v60 (F := Ideal) x0 x1 x5 (ix2 e j)
      = ∑ κ : Fin 128, val_main_v10 (F := Ideal) x0 x1 (ix2 e κ) * x5 (ix3 (5 : Fin 8) j κ) := by
    unfold val_main_v60
    refine (Cert.LibDot.dot_rows_apply _ rfl rfl rfl rfl rfl rfl none _ _ e j).trans ?_
    exact Finset.sum_congr rfl fun κ _ => congrArg (_ * ·) (wt5 x5 j κ)
  rw [hd]
  have hi : idx_main_v63 (idx_main_call5_v1 (ix2 e j)) = ix1 e := funext fun a => match a with | ⟨0, _⟩ => rfl
  rw [hi]
  exact sel _ _ _

/-- Relation 6's matrix, sliced out, flattened and transposed, read at (κ, j): entry (6, j, κ) of the relation matrices. -/
theorem wt6 (x5 : FVec Ideal S8x128x128 .f32) (j κ : Fin 128) :
    val_main_v68 (F := Ideal) x5 (ix2 κ j) = x5 (ix3 (6 : Fin 8) j κ) := by
  rw [val_main_v68_apply, val_main_v67_apply, val_main_v66_apply]
  refine congrArg x5 (funext fun a => Fin.ext ?_)
  have hj := j.isLt
  have hk := κ.isLt
  match a with
  | ⟨0, _⟩ => rfl
  | ⟨1, _⟩ => show (j.val * 128 + κ.val) / 128 % 128 = j.val; omega
  | ⟨2, _⟩ => show (j.val * 128 + κ.val) % 128 = κ.val; omega

/-- Relation 6's term at (e, j): the edge's source row against the relation's matrix if the edge's word is 6, else 0. -/
theorem w6 (x0 : FVec Ideal S50000x128 .f32) (x1 : IVec S2x500000 32) (x2 : IVec S500000 32)
    (x5 : FVec Ideal S8x128x128 .f32) (e : Fin 500000) (j : Fin 128) :
    val_main_v73 (F := Ideal) x0 x1 x2 x5 (ix2 e j)
      = if x2 (ix1 e) = 6#32 then ∑ κ : Fin 128, val_main_v10 (F := Ideal) x0 x1 (ix2 e κ) * x5 (ix3 (6 : Fin 8) j κ) else 0 := by
  rw [val_main_v73_apply, val_main_call6_v1_apply, val_main_v72_apply, val_main_v71_apply, val_main_v70_apply,
    val_main_c_13_apply, val_main_call6_v2_apply, val_main_call6_v0_apply, val_main_cst_14_apply]
  have hd : val_main_v69 (F := Ideal) x0 x1 x5 (ix2 e j)
      = ∑ κ : Fin 128, val_main_v10 (F := Ideal) x0 x1 (ix2 e κ) * x5 (ix3 (6 : Fin 8) j κ) := by
    unfold val_main_v69
    refine (Cert.LibDot.dot_rows_apply _ rfl rfl rfl rfl rfl rfl none _ _ e j).trans ?_
    exact Finset.sum_congr rfl fun κ _ => congrArg (_ * ·) (wt6 x5 j κ)
  rw [hd]
  have hi : idx_main_v72 (idx_main_call6_v1 (ix2 e j)) = ix1 e := funext fun a => match a with | ⟨0, _⟩ => rfl
  rw [hi]
  exact sel _ _ _

/-- Relation 7's matrix, sliced out, flattened and transposed, read at (κ, j): entry (7, j, κ) of the relation matrices. -/
theorem wt7 (x5 : FVec Ideal S8x128x128 .f32) (j κ : Fin 128) :
    val_main_v77 (F := Ideal) x5 (ix2 κ j) = x5 (ix3 (7 : Fin 8) j κ) := by
  rw [val_main_v77_apply, val_main_v76_apply, val_main_v75_apply]
  refine congrArg x5 (funext fun a => Fin.ext ?_)
  have hj := j.isLt
  have hk := κ.isLt
  match a with
  | ⟨0, _⟩ => rfl
  | ⟨1, _⟩ => show (j.val * 128 + κ.val) / 128 % 128 = j.val; omega
  | ⟨2, _⟩ => show (j.val * 128 + κ.val) % 128 = κ.val; omega

/-- Relation 7's term at (e, j): the edge's source row against the relation's matrix if the edge's word is 7, else 0. -/
theorem w7 (x0 : FVec Ideal S50000x128 .f32) (x1 : IVec S2x500000 32) (x2 : IVec S500000 32)
    (x5 : FVec Ideal S8x128x128 .f32) (e : Fin 500000) (j : Fin 128) :
    val_main_v82 (F := Ideal) x0 x1 x2 x5 (ix2 e j)
      = if x2 (ix1 e) = 7#32 then ∑ κ : Fin 128, val_main_v10 (F := Ideal) x0 x1 (ix2 e κ) * x5 (ix3 (7 : Fin 8) j κ) else 0 := by
  rw [val_main_v82_apply, val_main_call7_v1_apply, val_main_v81_apply, val_main_v80_apply, val_main_v79_apply,
    val_main_c_15_apply, val_main_call7_v2_apply, val_main_call7_v0_apply, val_main_cst_16_apply]
  have hd : val_main_v78 (F := Ideal) x0 x1 x5 (ix2 e j)
      = ∑ κ : Fin 128, val_main_v10 (F := Ideal) x0 x1 (ix2 e κ) * x5 (ix3 (7 : Fin 8) j κ) := by
    unfold val_main_v78
    refine (Cert.LibDot.dot_rows_apply _ rfl rfl rfl rfl rfl rfl none _ _ e j).trans ?_
    exact Finset.sum_congr rfl fun κ _ => congrArg (_ * ·) (wt7 x5 j κ)
  rw [hd]
  have hi : idx_main_v81 (idx_main_call7_v1 (ix2 e j)) = ix1 e := funext fun a => match a with | ⟨0, _⟩ => rfl
  rw [hi]
  exact sel _ _ _

/-- THE MESSAGE AT (e, j): the eight relation terms, added from zero in order, are the specification's message. -/
theorem msg_apply (x0 : FVec Ideal S50000x128 .f32) (x1 : IVec S2x500000 32) (x2 : IVec S500000 32)
    (x5 : FVec Ideal S8x128x128 .f32) (e : Fin 500000) (j : Fin 128) :
    val_main_v83 (F := Ideal) x0 x1 x2 x5 (ix2 e j)
      = Cert.Spec.msg (val_main_v10 (F := Ideal) x0 x1) x2 x5 e j := by
  rw [val_main_v83_apply, val_main_v74_apply, val_main_v65_apply, val_main_v56_apply, val_main_v47_apply,
    val_main_v38_apply, val_main_v29_apply, val_main_v20_apply, val_main_v11_apply, val_main_cst_apply,
    w0, w1, w2, w3, w4, w5, w6, w7]
  simp only [Ideal.addf_def, Ideal.ofBits_def, Ideal.ofBits_zero_f32, zero_add]
  unfold Cert.Spec.msg
  rw [Fin.sum_univ_eight]
  rfl

/-- The edges whose index word (the destination word, one per row) is n are the edges into n. -/
theorem into85 (x1 : IVec S2x500000 32) (n : Fin 50000) :
    Finset.univ.filter (fun e : Fin 500000 => (val_main_v85 (F := Ideal) x1 (ix2 e 0)).toInt = (n.val : Int))
      = Cert.Spec.into (val_main_v3 (F := Ideal) x1) n := by
  unfold Cert.Spec.into
  refine Finset.filter_congr fun e _ => ?_
  rw [val_main_v85_apply]
  have hi : idx_main_v85 (ix2 e (0 : Fin 1)) = ix1 e := funext fun a => match a with | ⟨0, _⟩ => rfl
  rw [hi]

/-- The same, for the index words of the degree's accumulation. -/
theorem into89 (x1 : IVec S2x500000 32) (n : Fin 50000) :
    Finset.univ.filter (fun e : Fin 500000 => (val_main_v89 (F := Ideal) x1 (ix2 e 0)).toInt = (n.val : Int))
      = Cert.Spec.into (val_main_v3 (F := Ideal) x1) n := by
  unfold Cert.Spec.into
  refine Finset.filter_congr fun e _ => ?_
  rw [val_main_v89_apply]
  have hi : idx_main_v89 (ix2 e (0 : Fin 1)) = ix1 e := funext fun a => match a with | ⟨0, _⟩ => rfl
  rw [hi]

/-- THE DEGREE AT n: ones added, from zero, over the edges into n. -/
theorem deg_apply (x1 : IVec S2x500000 32) (n : Fin 50000) :
    val_main_v90 (F := Ideal) x1 (ix2 n (0 : Fin 1)) = Cert.Spec.deg (val_main_v3 (F := Ideal) x1) n := by
  unfold val_main_v90
  refine (Cert.LibScatter.scatterAdd_rows_apply _ rfl rfl rfl rfl _ _ _ n 0).trans ?_
  unfold Cert.Spec.deg
  rw [into89, val_main_v88_apply, val_main_cst_19_apply]
  refine congrArg (_ + ·) (Finset.sum_congr rfl fun e _ => ?_)
  rw [val_main_v87_apply, val_main_cst_18_apply]
  rfl

/-- THE AGGREGATE AT (n, j): the messages added, from zero, over the edges into n. -/
theorem agg_apply (x0 : FVec Ideal S50000x128 .f32) (x1 : IVec S2x500000 32) (x2 : IVec S500000 32)
    (x5 : FVec Ideal S8x128x128 .f32) (n : Fin 50000) (j : Fin 128) :
    val_main_v86 (F := Ideal) x0 x1 x2 x5 (ix2 n j)
      = Cert.Spec.refAgg (val_main_v10 (F := Ideal) x0 x1) (val_main_v3 (F := Ideal) x1) x2 x5 n j := by
  unfold val_main_v86
  refine (Cert.LibScatter.scatterAdd_rows_apply _ rfl rfl rfl rfl _ _ _ n j).trans ?_
  unfold Cert.Spec.refAgg
  rw [into85, val_main_v84_apply, val_main_cst_17_apply]
  exact congrArg (_ + ·) (Finset.sum_congr rfl fun e _ => msg_apply x0 x1 x2 x5 e j)

/-- THE NODE'S OWN TRANSFORM AT (n, j): row n of the states against row j of the self matrix. -/
theorem self_apply (x0 : FVec Ideal S50000x128 .f32) (x3 : FVec Ideal S128x128 .f32) (n : Fin 50000) (j : Fin 128) :
    val_main_v96 (F := Ideal) x0 x3 (ix2 n j) = Cert.Spec.selfTerm x0 x3 n j := by
  unfold val_main_v96
  refine (Cert.LibDot.dot_rows_apply _ rfl rfl rfl rfl rfl rfl none _ _ n j).trans ?_
  unfold Cert.Spec.selfTerm
  refine Finset.sum_congr rfl fun κ _ => congrArg (_ * ·) ?_
  rw [val_main_v95_apply]
  exact congrArg x3 (funext fun a => match a with | ⟨0, _⟩ => rfl | ⟨1, _⟩ => rfl)

/-- The bias, spread over the nodes, read at (n, j): the bias at j. -/
theorem bias_apply (x4 : FVec Ideal S128 .f32) (n : Fin 50000) (j : Fin 128) :
    val_main_v98 (F := Ideal) x4 (ix2 n j) = x4 (ix1 j) := by
  rw [val_main_v98_apply, val_main_v97_apply]
  exact congrArg x4 (funext fun a => match a with | ⟨0, _⟩ => rfl)

/-- THE REFERENCE AT (n, j): the specification's edge-by-edge value, over the gathered source rows
    (the gather stage) and the destination words (row 1 of the edge index array, flattened). -/
theorem ref_apply (x0 : FVec Ideal S50000x128 .f32) (x1 : IVec S2x500000 32) (x2 : IVec S500000 32)
    (x3 : FVec Ideal S128x128 .f32) (x4 : FVec Ideal S128 .f32) (x5 : FVec Ideal S8x128x128 .f32)
    (n : Fin 50000) (j : Fin 128) :
    val_main_v101 (F := Ideal) x0 x1 x2 x3 x4 x5 (ix2 n j)
      = Cert.Spec.refOut (val_main_v10 (F := Ideal) x0 x1) x0 (val_main_v3 (F := Ideal) x1) x2 x3 x4 x5 n j := by
  rw [val_main_v101_apply, val_main_v100_apply, val_main_v99_apply, val_main_v94_apply, val_main_v93_apply,
    val_main_v92_apply, val_main_call8_v0_apply, val_main_call8_cst_apply, val_main_v91_apply, val_main_cst_20_apply]
  have h93 : idx_main_v93 (ix2 n j) = ix2 n (0 : Fin 1) :=
    funext fun a => match a with | ⟨0, _⟩ => rfl | ⟨1, _⟩ => rfl
  rw [h93, self_apply, bias_apply, agg_apply, deg_apply]
  rfl

end Cert.RefVal

end
-- ==== Proof.Algebra.lean ====
/-
  Grouping the source rows by (relation, destination) before the matrix products gives the same node values as
  multiplying edge by edge and summing over the edges into each node — when the source rows and the relation
  matrices hold real numbers, every destination word names a node and every relation word names a relation.

  Under those ranges the 32-bit key dst + 50000 · et does not wrap, so it is s · 50000 + n exactly when dst is n and
  et is s; the grouped sums then regroup the edges into n by relation, and the products distribute over the finite
  real sums. The clamped degree is a real number that is at least 1, so multiplying by its reciprocal is dividing
  by it.
-/
import proofs.«403347_j72756745994393_3_alg».proof.Proof.Spec
import Idealize.ShloMosaic.PureOps.Ideal.Laws

noncomputable section

open scoped BigOperators

namespace Cert.Algebra

open Idealize.ShloMosaic Idealize.ShloMosaic.ValueIdx Cert.Spec

/-- The zero word denotes 0. -/
theorem zf_eq : zf = 0 := Ideal.ofBits_zero_f32

/-- The one word denotes 1: sign 0, biased exponent 127, mantissa 0. -/
theorem onef_eq : onef = 1 := by
  show Ideal.ofBits .f32 0x3F800000#32 = 1
  simp [Ideal.ofBits, Ideal.ieee, -EReal.coe_mul]; norm_num

/-- The embedding of the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- … and with a choice between a real and 0. -/
theorem coe_ite_zero (c : Prop) [Decidable c] (a : ℝ) :
    ((if c then a else 0 : ℝ) : EReal) = if c then (a : EReal) else 0 := by
  split_ifs <;> simp

/-- A word whose signed reading is nonnegative reads the same unsigned. -/
theorem toInt_eq_toNat_of_nonneg (d : BitVec 32) (h : 0 ≤ d.toInt) : d.toInt = (d.toNat : ℤ) := by
  have h32 : d.toNat < 2 ^ 32 := d.isLt
  have := BitVec.toInt_eq_toNat_cond d
  split_ifs at this <;> omega

/-- THE KEY DOES NOT WRAP: for a destination word in [0, 50000) and a relation word in [0, 8) the key
    d + 50000 · t is s · 50000 + n exactly when d is n and t is s. -/
theorem key_iff (d t : BitVec 32) (hd : 0 ≤ d.toInt ∧ d.toInt < 50000) (ht : 0 ≤ t.toInt ∧ t.toInt < 8)
    (s : Fin 8) (n : Fin 50000) :
    (d + 50000#32 * t).toInt = ((s.val * 50000 + n.val : ℕ) : ℤ)
      ↔ d.toInt = (n.val : ℤ) ∧ t = BitVec.ofNat 32 s.val := by
  have hs := s.isLt
  have hn := n.isLt
  have hdI := toInt_eq_toNat_of_nonneg d hd.1
  have htI := toInt_eq_toNat_of_nonneg t ht.1
  have hdn : d.toNat < 50000 := by omega
  have htn : t.toNat < 8 := by omega
  have hk : (d + 50000#32 * t).toNat = d.toNat + 50000 * t.toNat := by
    rw [BitVec.toNat_add, BitVec.toNat_mul, BitVec.toNat_ofNat]
    omega
  have hkI : (d + 50000#32 * t).toInt = ((d.toNat + 50000 * t.toNat : ℕ) : ℤ) := by
    have := BitVec.toInt_eq_toNat_cond (d + 50000#32 * t)
    rw [hk] at this
    split_ifs at this <;> omega
  have hts : t = BitVec.ofNat 32 s.val ↔ t.toNat = s.val := by
    constructor
    · intro h; rw [h, BitVec.toNat_ofNat]; omega
    · intro h; apply BitVec.eq_of_toNat_eq; rw [BitVec.toNat_ofNat]; omega
  rw [hts, hkI, hdI]
  omega

section
variable (X : (⟨2, ![500000, 128]⟩ : Shape).Idx → EReal)
  (dst et : (⟨1, ![500000]⟩ : Shape).Idx → BitVec 32)
  (Wr : (⟨3, ![8, 128, 128]⟩ : Shape).Idx → EReal)

/-- The edges keyed (s, n) are the edges into n whose relation word is s. -/
theorem keyed_slot (hdst : ∀ e, 0 ≤ (dst e).toInt ∧ (dst e).toInt < 50000)
    (het : ∀ e, 0 ≤ (et e).toInt ∧ (et e).toInt < 8) (s : Fin 8) (n : Fin 50000) :
    keyed dst et (slot s n) = (into dst n).filter fun e => et (ix1 e) = BitVec.ofNat 32 s.val := by
  ext e
  simp only [keyed, into, Finset.mem_filter, Finset.mem_univ, true_and]
  exact key_iff _ _ (hdst _) (het _) s n

/-- The in-degree is the number of edges into n, a real number. -/
theorem deg_eq (n : Fin 50000) : deg dst n = (((into dst n).card : ℝ) : EReal) := by
  rw [deg, zf_eq, onef_eq, zero_add, Finset.sum_const, nsmul_one]
  rfl

/-- THE AGGREGATES AGREE: grouping by (relation, node) and then multiplying is multiplying edge by edge and
    summing over the edges into the node. -/
theorem kerAgg_eq_refAgg (hX : ∀ i, ∃ r : ℝ, X i = (r : EReal)) (hWr : ∀ i, ∃ r : ℝ, Wr i = (r : EReal))
    (hdst : ∀ e, 0 ≤ (dst e).toInt ∧ (dst e).toInt < 50000)
    (het : ∀ e, 0 ≤ (et e).toInt ∧ (et e).toInt < 8) (n : Fin 50000) (j : Fin 128) :
    kerAgg X dst et Wr n j = refAgg X dst et Wr n j := by
  have hX' : ∀ (e : Fin 500000) (κ : Fin 128), ∃ r : ℝ, X (ix2 e κ) = (r : EReal) := fun e κ => hX _
  have hW' : ∀ (s : Fin 8) (j κ : Fin 128), ∃ r : ℝ, Wr (ix3 s j κ) = (r : EReal) := fun s j κ => hWr _
  choose x hx using hX'
  choose w hw using hW'
  have hker : kerAgg X dst et Wr n j
      = ((∑ s : Fin 8, ∑ κ : Fin 128, (∑ e ∈ keyed dst et (slot s n), x e κ) * w s j κ : ℝ) : EReal) := by
    simp only [coe_finset_sum, EReal.coe_mul, kerAgg, grouped, zf_eq, zero_add, hx, hw]
  have href : refAgg X dst et Wr n j
      = ((∑ e ∈ into dst n, ∑ s : Fin 8,
          (if et (ix1 e) = BitVec.ofNat 32 s.val then ∑ κ : Fin 128, x e κ * w s j κ else 0) : ℝ) : EReal) := by
    simp only [coe_finset_sum, coe_ite_zero, EReal.coe_mul, refAgg, msg, zf_eq, zero_add, hx, hw]
  rw [hker, href]
  refine congrArg Real.toEReal ?_
  rw [Finset.sum_comm (s := into dst n)]
  refine Finset.sum_congr rfl fun s _ => ?_
  rw [← Finset.sum_filter, ← keyed_slot dst et hdst het s n, Finset.sum_comm]
  refine Finset.sum_congr rfl fun κ _ => ?_
  rw [Finset.sum_mul]

end

/-- THE TWO VALUES AGREE at every node and feature. -/
theorem kerOut_eq_refOut
    (X : (⟨2, ![500000, 128]⟩ : Shape).Idx → EReal) (ns : (⟨2, ![50000, 128]⟩ : Shape).Idx → EReal)
    (dst et : (⟨1, ![500000]⟩ : Shape).Idx → BitVec 32)
    (Ws : (⟨2, ![128, 128]⟩ : Shape).Idx → EReal) (bs : (⟨1, ![128]⟩ : Shape).Idx → EReal)
    (Wr : (⟨3, ![8, 128, 128]⟩ : Shape).Idx → EReal)
    (hX : ∀ i, ∃ r : ℝ, X i = (r : EReal)) (hWr : ∀ i, ∃ r : ℝ, Wr i = (r : EReal))
    (hdst : ∀ e, 0 ≤ (dst e).toInt ∧ (dst e).toInt < 50000)
    (het : ∀ e, 0 ≤ (et e).toInt ∧ (et e).toInt < 8)
    (n : Fin 50000) (j : Fin 128) :
    kerOut X ns dst et Ws bs Wr n j = refOut X ns dst et Ws bs Wr n j := by
  -- the clamped degree is the real number m = max (card) 1 ≥ 1
  set c : ℝ := ((into dst n).card : ℝ) with hc
  have hc0 : (0 : ℝ) ≤ c := Nat.cast_nonneg _
  have hm : max (deg dst n) onef = ((max c 1 : ℝ) : EReal) := by
    rw [deg_eq, onef_eq, ← EReal.coe_one]
    exact (EReal.coe_strictMono.monotone.map_max).symm
  have hm0 : max c 1 ≠ 0 := by
    have : (1 : ℝ) ≤ max c 1 := le_max_right _ _
    intro h; rw [h] at this; norm_num at this
  unfold kerOut refOut
  rw [hm, Ideal.div_coe hm0, Ideal.div_coe hm0, onef_eq, one_mul,
    kerAgg_eq_refAgg X dst et Wr hX hWr hdst het n j]

end Cert.Algebra

end
-- ==== Proof.PreFacts.lean ====
/-
  What the precondition says, entry by entry: the node states and the relation matrices hold real numbers, every
  destination word (row 1 of the edge index array) names a node, and every relation word names a relation.
-/
import proofs.«403347_j72756745994393_3_alg».proof.Proof.Gen.Pre_finite_inputs
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs Cert.Pre_finite_inputs.Facts

/-- The destination words: row 1 of the edge index array, sliced and flattened as the precondition (and both
    programs) read it. -/
abbrev dstWords (a1 : IVec S2x500000 32) : IVec S500000 32 :=
  shapeCast S500000 (extractStridedSlice S1x500000 ![1, 0] a1 slices_S2x500000_S1x500000_1_0) shapeCasts_S1x500000_S500000

/-- The shape of rank 0 has exactly one index. -/
theorem subsingleton_scalarIdx : Subsingleton S_.Idx := ⟨fun _ _ => funext fun d => d.elim0⟩

/-- An extended real whose absolute value max x (-x) lies strictly below +∞ is a real number: at +∞ and at -∞ the
    absolute value is +∞, which is not below itself. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | top => simp [Ideal.cmp] at h
  | coe r => exact ⟨r, rfl⟩

/-- THE PRECONDITION, READ: all ones means the node states and the relation matrices are real, the destination
    words lie in [0, 50000) and the relation words in [0, 8), read signed. -/
theorem of_pre (a0 : FVec Ideal S50000x128 .f32) (a1 : IVec S2x500000 32) (a2 : IVec S500000 32)
    (a3 : FVec Ideal S128x128 .f32) (a4 : FVec Ideal S128 .f32) (a5 : FVec Ideal S8x128x128 .f32)
    (h : fn (F := Ideal) a0 a1 a2 a3 a4 a5 = fun _ => 1#1) :
    (∀ i, ∃ r : ℝ, a0 i = (r : EReal)) ∧ (∀ i, ∃ r : ℝ, a5 i = (r : EReal))
    ∧ (∀ e, 0 ≤ (dstWords a1 e).toInt ∧ (dstWords a1 e).toInt < 50000)
    ∧ (∀ e, 0 ≤ (a2 e).toInt ∧ (a2 e).toInt < 8) := by
  haveI := subsingleton_scalarIdx
  -- the one entry of the conjunction, split into its eight reductions by "and"; the two about a3 and a4 are dropped
  have e := congrFun h ix0
  dsimp only [fn, fn_part1, fn_part2] at e
  simp only [andi, IntOp.andi_eq_one] at e
  obtain ⟨⟨⟨⟨⟨⟨⟨h0, -⟩, -⟩, h5⟩, hd0⟩, hd1⟩, hr0⟩, hr1⟩ := e
  have hz : (0#32 : BitVec 32).toInt = 0 := by decide
  have hn : (50000#32 : BitVec 32).toInt = 50000 := by decide
  have hk : (8#32 : BitVec 32).toInt = 8 := by decide
  -- a reduction by "and" over all axes that is 1 had a 1 at every index; there the compared bit is read off
  refine ⟨fun i => ?_, fun i => ?_, fun j => ⟨?_, ?_⟩, fun j => ⟨?_, ?_⟩⟩
  · have b := Host.reduce_andi_all _ _ _ _ _ h0 i
    simp only [cmpf, Host.absf, StableHlo.Predicate.bcast_scalar _ h_S_, constant] at b
    exact real_of_abs_lt_inf _ b
  · have b := Host.reduce_andi_all _ _ _ _ _ h5 i
    simp only [cmpf, Host.absf, StableHlo.Predicate.bcast_scalar _ h_S_, constant] at b
    exact real_of_abs_lt_inf _ b
  · have b := Host.reduce_andi_all _ _ _ _ _ hd0 j
    simp only [cmpi, StableHlo.Predicate.bcast_scalar _ h_S_, constantI, IntOp.cmpi_sge, hz] at b
    exact b
  · have b := Host.reduce_andi_all _ _ _ _ _ hd1 j
    simp only [cmpi, StableHlo.Predicate.bcast_scalar _ h_S_, constantI, IntOp.cmpi_slt, hn] at b
    exact b
  · have b := Host.reduce_andi_all _ _ _ _ _ hr0 j
    simp only [cmpi, StableHlo.Predicate.bcast_scalar _ h_S_, constantI, IntOp.cmpi_sge, hz] at b
    exact b
  · have b := Host.reduce_andi_all _ _ _ _ _ hr1 j
    simp only [cmpi, StableHlo.Predicate.bcast_scalar _ h_S_, constantI, IntOp.cmpi_slt, hk] at b
    exact b

end Cert.PreFacts

end
-- ==== Proof.lean ====
/-
  A relational graph layer: every node's new state is its own linear transform plus bias plus the degree-normalised
  sum, over its incoming edges, of the source node's state times the matrix of the edge's relation, clamped at 0.

  The kernel groups the gathered source rows by (relation, destination) with one scatter keyed dst + 50000 · et,
  runs a grid of 5 node blocks × 8 relations that accumulates, block by block, grouped rows times relation
  matrices, and finishes each block by multiplying with the reciprocal of the clamped in-degree and adding the self
  transform and bias. The reference multiplies every edge's row by each relation's matrix, keeps the one its relation
  word selects, scatters the messages onto the destinations and divides by the clamped in-degree.

  The two agree over the extended reals when the node states and relation matrices are finite, every destination
  word names a node and every relation word names a relation: then the key does not wrap and identifies
  (relation, destination), the products distribute over the finite sums, and multiplying by the reciprocal of a
  real number that is at least 1 is dividing by it. Outside those index ranges the two programs differ (a
  destination past the last node lands in another relation's slot of the grouped array, and is dropped by the
  reference), which is why the statement carries them.
-/
import proofs.«403347_j72756745994393_3_alg».proof.Defs
import proofs.«403347_j72756745994393_3_alg».proof.Proof.Gen.Kernel.Frame
import proofs.«403347_j72756745994393_3_alg».proof.Proof.Gen.KernelIdeal.Value
import proofs.«403347_j72756745994393_3_alg».proof.Proof.Gen.Pre_finite_inputs
import proofs.«403347_j72756745994393_3_alg».proof.Proof.Gen.ReferenceIdeal.Run
import proofs.«403347_j72756745994393_3_alg».proof.Proof.Gen.ReferenceIdeal.Read
import proofs.«403347_j72756745994393_3_alg».proof.Proof.KernelVal
import proofs.«403347_j72756745994393_3_alg».proof.Proof.RefVal
import proofs.«403347_j72756745994393_3_alg».proof.Proof.Algebra
import proofs.«403347_j72756745994393_3_alg».proof.Proof.PreFacts
import Idealize.ShloMosaic.Adequacy
import Idealize.ShloMosaic.Init

noncomputable section

namespace Cert.Proof

open Idealize.ShloMosaic Idealize.ShloMosaic.ValueIdx Idealize.SL.Sem

/-- Both programs gather the same source rows: the same operations on the same arguments. -/
theorem rows_eq (x0 : FVec Ideal Cert.KernelIdeal.S50000x128 .f32) (x1 : IVec Cert.KernelIdeal.S2x500000 32) :
    Cert.ReferenceIdeal.Read.val_main_v10 (F := Ideal) x0 x1 = Cert.KernelHost.xs x0 x1 := rfl

/-- Both programs, and the precondition, read the destination words the same way. -/
theorem dst_eq (x1 : IVec Cert.KernelIdeal.S2x500000 32) :
    Cert.ReferenceIdeal.Read.val_main_v3 (F := Ideal) x1 = Cert.KernelHost.dstw x1 := rfl

theorem dst_eq_pre (x1 : IVec Cert.KernelIdeal.S2x500000 32) :
    Cert.PreFacts.dstWords x1 = Cert.KernelHost.dstw x1 := rfl

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- The kernel's array ends at the grouped-first value and the reference's at the edge-by-edge value of the same
    arguments; under the precondition they are one function. -/
theorem algebraic_KernelIdeal_ReferenceIdeal : algebraic_KernelIdeal_ReferenceIdeal := by
  intro m ρ m' ρ' hpre hagree
  refine ⟨fun c => Cert.KernelIdeal.Value.G6 m c, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v101_eq]
  obtain ⟨h0, h1, h2, h3, h4, h5⟩ := hagree c
  rw [h0, h1, h2, h3, h4, h5]
  funext i
  obtain ⟨n, j, rfl⟩ : ∃ (n : Fin 50000) (j : Fin 128), i = ix2 n j := ⟨i 0, i 1, eq_ix2 i⟩
  obtain ⟨f0, f5, fd, fe⟩ := Cert.PreFacts.of_pre _ _ _ _ _ _ (hpre c)
  refine (Cert.RefVal.ref_apply _ _ _ _ _ _ n j).trans ?_
  refine Eq.trans ?_ (Cert.KernelVal.G6_apply m c n j).symm
  rw [rows_eq, dst_eq]
  rw [dst_eq_pre] at fd
  exact (Cert.Algebra.kerOut_eq_refOut _ _ _ _ _ _ _ (fun i => f0 _) f5 fd fe n j).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
